-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "neg_inv_two_sigma_sq" .f32 0xC2480000#32 ((-268435456 / 5368709 : ℝ) : EReal)
  ∧ IdealRules.named_const.Statement Cert.KernelIdeal.κ "neg_inv_two_sigma_sq" .f32 0xC2480000#32 ((-268435456 / 5368709 : ℝ) : EReal)
  ∧ IdealRules.named_const.Statement Cert.KernelIdeal.κ "inv_nm1" .f32 0x39000400#32 ((1 / 8191 : ℝ) : EReal)
  ∧ IdealRules.named_const.Statement Cert.KernelIdeal.κ "inv_nm1" .f32 0x39000400#32 ((1 / 8191 : ℝ) : EReal)
  ∧ IdealRules.named_const.Statement Cert.KernelIdeal.κ "inv_nm1" .f32 0x39000400#32 ((1 / 8191 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192 : Shape := ⟨1, ![8192]⟩
abbrev S_ : Shape := ⟨0, ![]⟩

class Facts : Prop where
  bcast_S_S8192 : S_.BroadcastsInDim S8192 (![] : Fin 0 → Fin S8192.rank)
  reducesTo_S8192_S_d0 : S8192.ReducesTo [0] S_
  h_S_ : 0 < S_.numel

variable [Facts]

def fn {F : FTy → Type} [FloatOps F] (main_arg0 : FVec F S8192 .f32) (main_arg1 : FVec F S8192 .f32) : IVec S_ 1 :=
  let main_v0 : FVec F S8192 .f32 := Host.absf main_arg0
  let main_cst : FVec F S_ .f32 := constant S_ .f32 0x7F800000#32
  let main_v1 : FVec F S8192 .f32 := broadcastInDim S8192 ![] bcast_S_S8192 main_cst
  let main_v2 : IVec S8192 1 := cmpf .olt main_v0 main_v1
  let main_c : IVec S_ 1 := constantI S_ 1 1#1
  let main_v3 : IVec S_ 1 := (fun x v => Host.reduce IntOp.andi x v reducesTo_S8192_S_d0 h_S_) main_v2 main_c
  let main_v4 : FVec F S8192 .f32 := Host.absf main_arg1
  let main_cst_0 : FVec F S_ .f32 := constant S_ .f32 0x7F800000#32
  let main_v5 : FVec F S8192 .f32 := broadcastInDim S8192 ![] bcast_S_S8192 main_cst_0
  let main_v6 : IVec S8192 1 := cmpf .olt main_v4 main_v5
  let main_c_1 : IVec S_ 1 := constantI S_ 1 1#1
  let main_v7 : IVec S_ 1 := (fun x v => Host.reduce IntOp.andi x v reducesTo_S8192_S_d0 h_S_) main_v6 main_c_1
  let main_v8 : IVec S_ 1 := andi main_v3 main_v7
  main_v8
-- ==== Kernel.lean ====
abbrev S8192 : Shape := ⟨1, ![8192]⟩
abbrev S8192x1 : Shape := ⟨2, ![8192, 1]⟩
abbrev S1x8192 : Shape := ⟨2, ![1, 8192]⟩
abbrev S512x1 : Shape := ⟨2, ![512, 1]⟩
abbrev S1x512 : Shape := ⟨2, ![1, 512]⟩
abbrev S1x2048 : Shape := ⟨2, ![1, 2048]⟩
abbrev S512x2048 : Shape := ⟨2, ![512, 2048]⟩
abbrev S512 : Shape := ⟨1, ![512]⟩
abbrev S_ : Shape := ⟨0, ![]⟩

abbrev nBuf : Space → Nat
  | .hbm => 27
  | .vmem => 12
  | .smem => 0
  | _ => 0

abbrev bufTy : (tb : Table) → Fin (tcTables nBuf tb) → BufTy
  | .hbm, ⟨0, _⟩ => ⟨S8192, .f32⟩
  | .hbm, ⟨1, _⟩ => ⟨S8192, .f32⟩
  | .hbm, ⟨2, _⟩ => ⟨S8192x1, .f32⟩
  | .hbm, ⟨3, _⟩ => ⟨S8192x1, .f32⟩
  | .hbm, ⟨4, _⟩ => ⟨S1x8192, .f32⟩
  | .hbm, ⟨5, _⟩ => ⟨S1x8192, .f32⟩
  | .hbm, ⟨6, _⟩ => ⟨S1x8192, .f32⟩
  | .hbm, ⟨7, _⟩ => ⟨S1x8192, .f32⟩
  | .hbm, ⟨8, _⟩ => ⟨S1x8192, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .local _ .vmem, ⟨0, _⟩ => ⟨S512x1, .f32⟩
  | .local _ .vmem, ⟨1, _⟩ => ⟨S512x1, .f32⟩
  | .local _ .vmem, ⟨2, _⟩ => ⟨S512x1, .f32⟩
  | .local _ .vmem, ⟨3, _⟩ => ⟨S512x1, .f32⟩
  | .local _ .vmem, ⟨4, _⟩ => ⟨S1x8192, .f32⟩
  | .local _ .vmem, ⟨5, _⟩ => ⟨S1x8192, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | _, _ => ⟨S8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev main_v4_2 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c4_i32 : BitVec 32 := 4#32
  let v5 : BitVec 32 := Scalar.addi c0_i32 c4_i32
  let c1_i32 : BitVec 32 := 1#32
  ⟨c0_i32, v5, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c2048_i32 : BitVec 32 := 2048#32
  let v34 : BitVec 32 := Scalar.muli arg8 c2048_i32
  v34
def k0_off1 (k0_t1 : Fin k0_t1_loop.trips) : Fin 2 → Nat :=
  let c0_19 : Index := 0#32
  let c0_i32 : BitVec 32 := 0#32
  let c1_i32 : BitVec 32 := 1#32
  let arg8 : BitVec 32 := Scf.iv c0_i32 c1_i32 k0_t1
  let c2048_i32 : BitVec 32 := 2048#32
  let v34 : BitVec 32 := Scalar.muli arg8 c2048_i32
  let v35 : BitVec 32 := v34
  let v36 : Index := Scalar.indexCast v35
  ![0, v36.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S8192_S8192x1 : S8192.ShapeCasts S8192x1
  shapeCasts_S8192_S1x8192 : S8192.ShapeCasts S1x8192
  inb_S512x1_S512x1_0_0 : ∀ a, (![0, 0] : Fin 2 → Nat) a + S512x1.size a ≤ S512x1.size a
  h_S512x1 : 0 < S512x1.numel
  shapeCasts_S512x1_S512x1 : S512x1.ShapeCasts S512x1
  h_S1x2048 : 0 < S1x2048.numel
  shapeCasts_S1x2048_S1x2048 : S1x2048.ShapeCasts S1x2048
  broadcasts_S512x1_S512x2048 : S512x1.Broadcasts S512x2048
  broadcasts_S1x2048_S512x2048 : S1x2048.Broadcasts S512x2048
  reduces_S512x2048_S512 : S512x2048.Reduces [1] S512
  shapeCasts_S512_S512x1 : S512.ShapeCasts S512x1
  transposes_S512x1_p1_0_S1x512 : S512x1.Transposes [1, 0] S1x512
  inb_S1x512_S1x512_0_0 : ∀ a, (![0, 0] : Fin 2 → Nat) a + S1x512.size a ≤ S1x512.size a
  h_S1x512 : 0 < S1x512.numel
  reducesTo_S1x8192_S_d0_1 : S1x8192.ReducesTo [0, 1] S_
  h_S_ : 0 < S_.numel
  hrank0 : 0 < grid0.rank
  k0_t1_ok : k0_t1_loop.OK
  k0_mult1_dvd : ∀ k0_t1 : Fin k0_t1_loop.trips, 2048 ∣ (k0_mult1 k0_t1).toNat
  k0_off1_inb : ∀ k0_t1 : Fin k0_t1_loop.trips, ∀ a, (k0_off1 k0_t1) a + S1x2048.size a ≤ S1x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1.size a ≤ S8192x1.size a
  hwx0_0 : ∀ i : grid0.Coords, EltTy.bits .f32 = 32 ∨ (Rect.block (s := S8192x1) S512x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S8192x1.size a
  hwx0_1 : ∀ i : grid0.Coords, EltTy.bits .f32 = 32 ∨ (Rect.block (s := S8192x1) S512x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8192.size a ≤ S1x8192.size a
  hwx0_2 : ∀ i : grid0.Coords, EltTy.bits .f32 = 32 ∨ (Rect.block (s := S1x8192) S1x8192.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x8192.size a ≤ S1x8192.size a
  hwx0_3 : ∀ i : grid0.Coords, EltTy.bits .f32 = 32 ∨ (Rect.block (s := S1x8192) S1x8192.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x8192.size a
  hwx0_4 : ∀ i : grid0.Coords, EltTy.bits .f32 = 32 ∨ (Rect.block (s := S1x8192) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x8192.size a
  hwx0_5 : ∀ i : grid0.Coords, EltTy.bits .f32 = 32 ∨ (Rect.block (s := S1x8192) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x8192.size a
  hwx0_6 : ∀ i : grid0.Coords, EltTy.bits .f32 = 32 ∨ (Rect.block (s := S1x8192) S1x512.size (cc0_transform_6 i) (hinb0_6 i)).WholeWords (EltTy.packing .f32)

variable [Facts₀]

abbrev win0_0 : Pipeline.Window sig grid0 :=
  Pipeline.Window.ofSpec (Memref.whole main_v0) S512x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x8192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x8192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S1x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S1x512.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4_2) S1x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192 : Shape := ⟨1, ![8192]⟩
abbrev S8192x1 : Shape := ⟨2, ![8192, 1]⟩
abbrev S8192x2 : Shape := ⟨2, ![8192, 2]⟩
abbrev S_ : Shape := ⟨0, ![]⟩
abbrev S1x8192 : Shape := ⟨2, ![1, 8192]⟩
abbrev S8192x8192 : Shape := ⟨2, ![8192, 8192]⟩
abbrev S2x8192 : Shape := ⟨2, ![2, 8192]⟩

abbrev nBuf : Space → Nat
  | .hbm => 125
  | .vmem => 0
  | .smem => 0
  | _ => 0

abbrev bufTy : (tb : Table) → Fin (tcTables nBuf tb) → BufTy
  | .hbm, ⟨0, _⟩ => ⟨S8192, .f32⟩
  | .hbm, ⟨1, _⟩ => ⟨S8192, .f32⟩
  | .hbm, ⟨2, _⟩ => ⟨S8192x1, .f32⟩
  | .hbm, ⟨3, _⟩ => ⟨S8192x1, .f32⟩
  | .hbm, ⟨4, _⟩ => ⟨S8192x2, .f32⟩
  | .hbm, ⟨5, _⟩ => ⟨S8192x2, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S1x8192, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S2x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192x8192, .f32⟩
  | .hbm, ⟨21, _⟩ => ⟨S8192x8192, .f32⟩
  | .hbm, ⟨22, _⟩ => ⟨S8192x8192, .f32⟩
  | .hbm, ⟨23, _⟩ => ⟨S_, .f32⟩
  | .hbm, ⟨24, _⟩ => ⟨S8192x8192, .f32⟩
  | .hbm, ⟨25, _⟩ => ⟨S8192x8192, .f32⟩
  | .hbm, ⟨26, _⟩ => ⟨S8192x8192, .f32⟩
  | .hbm, ⟨27, _⟩ => ⟨S_, .f32⟩
  | .hbm, ⟨28, _⟩ => ⟨S8192, .f32⟩
  | .hbm, ⟨29, _⟩ => ⟨S_, .f32⟩
  | .hbm, ⟨30, _⟩ => ⟨S8192, .f32⟩
  | .hbm, ⟨31, _⟩ => ⟨S8192, .f32⟩
  | .hbm, ⟨32, _⟩ => ⟨S_, .f32⟩
  | .hbm, ⟨33, _⟩ => ⟨S8192, .f32⟩
  | .hbm, ⟨34, _⟩ => ⟨S8192, .f32⟩
  | .hbm, ⟨35, _⟩ => ⟨S_, .f32⟩
  | .hbm, ⟨36, _⟩ => ⟨S8192, .f32⟩
  | .hbm, ⟨37, _⟩ => ⟨S8192, .f32⟩
  | .hbm, ⟨38, _⟩ => ⟨S8192, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S8192x1, .f32⟩
  | .hbm, ⟨45, _⟩ => ⟨S_, .f32⟩
  | .hbm, ⟨46, _⟩ => ⟨S8192, .f32⟩
  | .hbm, ⟨47, _⟩ => ⟨S8192x1, .f32⟩
  | .hbm, ⟨48, _⟩ => ⟨S1x8192, .f32⟩
  | .hbm, ⟨49, _⟩ => ⟨S8192x8192, .f32⟩
  | .hbm, ⟨50, _⟩ => ⟨S8192x8192, .f32⟩
  | .hbm, ⟨51, _⟩ => ⟨S8192x8192, .f32⟩
  | .hbm, ⟨52, _⟩ => ⟨S1x8192, .f32⟩
  | .hbm, ⟨53, _⟩ => ⟨S8192x8192, .f32⟩
  | .hbm, ⟨54, _⟩ => ⟨S_, .f32⟩
  | .hbm, ⟨55, _⟩ => ⟨S8192x8192, .f32⟩
  | .hbm, ⟨56, _⟩ => ⟨S8192x8192, .f32⟩
  | .hbm, ⟨57, _⟩ => ⟨S8192x8192, .f32⟩
  | .hbm, ⟨58, _⟩ => ⟨S_, .f32⟩
  | .hbm, ⟨59, _⟩ => ⟨S8192x8192, .f32⟩
  | .hbm, ⟨60, _⟩ => ⟨S8192x8192, .f32⟩
  | .hbm, ⟨61, _⟩ => ⟨S8192x8192, .f32⟩
  | .hbm, ⟨62, _⟩ => ⟨S_, .f32⟩
  | .hbm, ⟨63, _⟩ => ⟨S8192x8192, .f32⟩
  | .hbm, ⟨64, _⟩ => ⟨S8192x8192, .f32⟩
  | .hbm, ⟨65, _⟩ => ⟨S8192x8192, .f32⟩
  | .hbm, ⟨66, _⟩ => ⟨S_, .f32⟩
  | .hbm, ⟨67, _⟩ => ⟨S8192, .f32⟩
  | .hbm, ⟨68, _⟩ => ⟨S_, .f32⟩
  | .hbm, ⟨69, _⟩ => ⟨S8192, .f32⟩
  | .hbm, ⟨70, _⟩ => ⟨S8192, .f32⟩
  | .hbm, ⟨71, _⟩ => ⟨S_, .f32⟩
  | .hbm, ⟨72, _⟩ => ⟨S8192, .f32⟩
  | .hbm, ⟨73, _⟩ => ⟨S8192, .f32⟩
  | .hbm, ⟨74, _⟩ => ⟨S_, .f32⟩
  | .hbm, ⟨75, _⟩ => ⟨S8192, .f32⟩
  | .hbm, ⟨76, _⟩ => ⟨S8192, .f32⟩
  | .hbm, ⟨77, _⟩ => ⟨S8192, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S8192x1, .f32⟩
  | .hbm, ⟨84, _⟩ => ⟨S_, .f32⟩
  | .hbm, ⟨85, _⟩ => ⟨S8192, .f32⟩
  | .hbm, ⟨86, _⟩ => ⟨S8192x1, .f32⟩
  | .hbm, ⟨87, _⟩ => ⟨S1x8192, .f32⟩
  | .hbm, ⟨88, _⟩ => ⟨S8192x8192, .f32⟩
  | .hbm, ⟨89, _⟩ => ⟨S8192x8192, .f32⟩
  | .hbm, ⟨90, _⟩ => ⟨S8192x8192, .f32⟩
  | .hbm, ⟨91, _⟩ => ⟨S1x8192, .f32⟩
  | .hbm, ⟨92, _⟩ => ⟨S8192x8192, .f32⟩
  | .hbm, ⟨93, _⟩ => ⟨S_, .f32⟩
  | .hbm, ⟨94, _⟩ => ⟨S8192x8192, .f32⟩
  | .hbm, ⟨95, _⟩ => ⟨S8192x8192, .f32⟩
  | .hbm, ⟨96, _⟩ => ⟨S8192x8192, .f32⟩
  | .hbm, ⟨97, _⟩ => ⟨S_, .f32⟩
  | .hbm, ⟨98, _⟩ => ⟨S8192x8192, .f32⟩
  | .hbm, ⟨99, _⟩ => ⟨S8192x8192, .f32⟩
  | .hbm, ⟨100, _⟩ => ⟨S8192x8192, .f32⟩
  | .hbm, ⟨101, _⟩ => ⟨S_, .f32⟩
  | .hbm, ⟨102, _⟩ => ⟨S8192x8192, .f32⟩
  | .hbm, ⟨103, _⟩ => ⟨S8192x8192, .f32⟩
  | .hbm, ⟨104, _⟩ => ⟨S8192x8192, .f32⟩
  | .hbm, ⟨105, _⟩ => ⟨S_, .f32⟩
  | .hbm, ⟨106, _⟩ => ⟨S8192, .f32⟩
  | .hbm, ⟨107, _⟩ => ⟨S_, .f32⟩
  | .hbm, ⟨108, _⟩ => ⟨S8192, .f32⟩
  | .hbm, ⟨109, _⟩ => ⟨S8192, .f32⟩
  | .hbm, ⟨110, _⟩ => ⟨S_, .f32⟩
  | .hbm, ⟨111, _⟩ => ⟨S8192, .f32⟩
  | .hbm, ⟨112, _⟩ => ⟨S8192, .f32⟩
  | .hbm, ⟨113, _⟩ => ⟨S_, .f32⟩
  | .hbm, ⟨114, _⟩ => ⟨S8192, .f32⟩
  | .hbm, ⟨115, _⟩ => ⟨S8192, .f32⟩
  | .hbm, ⟨116, _⟩ => ⟨S8192, .f32⟩
  | .hbm, ⟨117, _⟩ => ⟨S_, .f32⟩
  | .hbm, ⟨118, _⟩ => ⟨S_, .f32⟩
  | .hbm, ⟨119, _⟩ => ⟨S_, .f32⟩
  | .hbm, ⟨120, _⟩ => ⟨S_, .f32⟩
  | .hbm, ⟨121, _⟩ => ⟨S_, .f32⟩
  | .hbm, ⟨122, _⟩ => ⟨S_, .f32⟩
  | .hbm, ⟨123, _⟩ => ⟨S_, .f32⟩
  | .hbm, ⟨124, _⟩ => ⟨S_, .f32⟩
  | _, _ => ⟨S8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_3 : Ref sig .tc := ⟨.hbm, 27, rfl⟩
abbrev main_v21 : Ref sig .tc := ⟨.hbm, 28, rfl⟩
abbrev main_cst_4 : Ref sig .tc := ⟨.hbm, 29, rfl⟩
abbrev main_v22 : Ref sig .tc := ⟨.hbm, 30, rfl⟩
abbrev main_v23 : Ref sig .tc := ⟨.hbm, 31, rfl⟩
abbrev main_cst_5 : Ref sig .tc := ⟨.hbm, 32, rfl⟩
abbrev main_v24 : Ref sig .tc := ⟨.hbm, 33, rfl⟩
abbrev main_v25 : Ref sig .tc := ⟨.hbm, 34, rfl⟩
abbrev main_cst_6 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_7 : Ref sig .tc := ⟨.hbm, 39, rfl⟩
abbrev main_v29 : Ref sig .tc := ⟨.hbm, 40, rfl⟩
abbrev main_cst_8 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_9 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_10 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_11 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_12 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_13 : Ref sig .tc := ⟨.hbm, 66, rfl⟩
abbrev main_v50 : Ref sig .tc := ⟨.hbm, 67, rfl⟩
abbrev main_cst_14 : Ref sig .tc := ⟨.hbm, 68, rfl⟩
abbrev main_v51 : Ref sig .tc := ⟨.hbm, 69, rfl⟩
abbrev main_v52 : Ref sig .tc := ⟨.hbm, 70, rfl⟩
abbrev main_cst_15 : Ref sig .tc := ⟨.hbm, 71, rfl⟩
abbrev main_v53 : Ref sig .tc := ⟨.hbm, 72, rfl⟩
abbrev main_v54 : Ref sig .tc := ⟨.hbm, 73, rfl⟩
abbrev main_cst_16 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_17 : Ref sig .tc := ⟨.hbm, 78, rfl⟩
abbrev main_v58 : Ref sig .tc := ⟨.hbm, 79, rfl⟩
abbrev main_cst_18 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_19 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_cst_20 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_cst_21 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_cst_22 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_cst_23 : Ref sig .tc := ⟨.hbm, 105, rfl⟩
abbrev main_v79 : Ref sig .tc := ⟨.hbm, 106, rfl⟩
abbrev main_cst_24 : Ref sig .tc := ⟨.hbm, 107, rfl⟩
abbrev main_v80 : Ref sig .tc := ⟨.hbm, 108, rfl⟩
abbrev main_v81 : Ref sig .tc := ⟨.hbm, 109, rfl⟩
abbrev main_cst_25 : Ref sig .tc := ⟨.hbm, 110, rfl⟩
abbrev main_v82 : Ref sig .tc := ⟨.hbm, 111, rfl⟩
abbrev main_v83 : Ref sig .tc := ⟨.hbm, 112, rfl⟩
abbrev main_cst_26 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_cst_27 : Ref sig .tc := ⟨.hbm, 117, rfl⟩
abbrev main_v87 : Ref sig .tc := ⟨.hbm, 118, rfl⟩
abbrev main_cst_28 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩

abbrev nD : Nat := 1
abbrev τ : Topo := Topo.v7x

variable {F : FTy → Type} [FloatOps F]

class Facts₀ : Prop where
  shapeCasts_S8192_S8192x1 : S8192.ShapeCasts S8192x1
  concatenates_S8192x1_S8192x1_S8192x2_d1 : Shape.Concatenates [S8192x1, S8192x1] S8192x2 1
  reducesTo_S8192x2_S8192_d1 : S8192x2.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x2_S2x8192_1_0 : S8192x2.Transposes [1, 0] S2x8192
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_
  reducesTo_S8192x1_S8192_d1 : S8192x1.ReducesTo [1] S8192
  transposes_S8192x1_S1x8192_1_0 : S8192x1.Transposes [1, 0] S1x8192
  dot_S8192x2_S2x8192_S8192x8192_1_0_0_1_n_n_wf : DotDims.WF S8192x2 S2x8192 S8192x8192 [1] [0] [0] [1] [] []
  dot_S8192x1_S1x8192_S8192x8192_1_0_0_1_n_n_wf : DotDims.WF S8192x1 S1x8192 S8192x8192 [1] [0] [0] [1] [] []

variable [Facts₀]

def dot_S8192x2_S2x8192_S8192x8192_1_0_0_1_n_n : DotDims S8192x2 S2x8192 S8192x8192 where
  lhsContracting := [1]
  rhsContracting := [0]
  lhsNonContracting := [0]
  rhsNonContracting := [1]
  lhsBatch := []
  rhsBatch := []
  wf := dot_S8192x2_S2x8192_S8192x8192_1_0_0_1_n_n_wf
def dot_S8192x1_S1x8192_S8192x8192_1_0_0_1_n_n : DotDims S8192x1 S1x8192 S8192x8192 where
  lhsContracting := [1]
  rhsContracting := [0]
  lhsNonContracting := [0]
  rhsNonContracting := [1]
  lhsBatch := []
  rhsBatch := []
  wf := dot_S8192x1_S1x8192_S8192x8192_1_0_0_1_n_n_wf

class Facts : Prop extends Facts₀ where

variable [Facts]
-- ==== Proof.KdeSpec.lean ====
/-
  The mathematics of the two programs, free of any program text.

  Both programs estimate three Gaussian-kernel entropies of the samples `Y`, `P` (8192 points each) and of
  the joint samples `(Y, P)`, and return `-(H(Y) + H(P) - H(Y, P))`.  For one family of samples the entropy is
  `H = -(1/8192) ∑ r, log ((S r - 1) / 8191 + ε)` with `S r = ∑ j, k r j` the row sums of the kernel matrix.

  * The kernel program forms `k r j = exp ((Y r - Y j)² · s)` with `s` the NAMED scale `-1/D`
    (`D` the reference's own divisor, the dyadic 5368709/268435456), takes the joint kernel as the PRODUCT
    `exp (dy² · s) · exp (dp² · s)`, and multiplies by the named reciprocal `1/8191`: `kernelValue`.
  * The reference forms the squared distance by the Gram expansion
    `max ((|x r|² + |x j|²) - 2 · ⟨x r, x j⟩) 0`, negates it, divides by `D`, and divides by `8191`: `refValue`.

  On finite samples the two are equal (Proof/KdeAlgebra.lean); this file only states them, index by index over
  `Fin 8192`, on the extended reals.
-/
import Idealize.ShloMosaic.PureOps.Ideal
import Idealize.ShloMosaic.PureOps.Ideal.Laws

noncomputable section

namespace Cert.Kde

open Idealize.ShloMosaic

/-- The kernel's scale, the exact rational `-1/D` its named constant denotes. -/
def scale : EReal := ((-268435456 / 5368709 : ℝ) : EReal)
/-- The kernel's reciprocal of the number of other points, the exact rational its named constant denotes. -/
def invCount : EReal := ((1 / 8191 : ℝ) : EReal)

/-- The literals both programs carry, as the extended reals their binary words denote. -/
abbrev zero : EReal := Ideal.ofBits .f32 0x00000000#32
abbrev one : EReal := Ideal.ofBits .f32 0x3F800000#32
abbrev two : EReal := Ideal.ofBits .f32 0x40000000#32
abbrev eps : EReal := Ideal.ofBits .f32 0x322BCC77#32
abbrev count : EReal := Ideal.ofBits .f32 0x46000000#32
/-- The reference's divisor `2σ²` as printed: the dyadic 5368709/268435456. -/
abbrev twoSigmaSq : EReal := Ideal.ofBits .f32 0x3CA3D70A#32
/-- The reference's divisor `n - 1 = 8191`. -/
abbrev countLessOne : EReal := Ideal.ofBits .f32 0x45FFF800#32

/-- The entropy estimate from the logarithms of the row means: minus their mean over the 8192 rows, the host's
    sum starting from the literal zero. Shared by both programs. -/
def entropy (L : Fin 8192 → EReal) : EReal := -(Ideal.div (zero + ∑ r, L r) count)

/-! ## The kernel program's form -/

/-- One entry of the kernel matrix as the kernel program forms it: `exp ((a - b)² · s)`. -/
def gauss (a b : EReal) : EReal := Ideal.exp (((a - b) * (a - b)) * scale)

/-- The logarithm of a row's mean over the other points, from the row sum, as the kernel program forms it. -/
def logMean (S : EReal) : EReal := Ideal.log ((S - one) * invCount + eps)

/-- What the kernel program returns, as a function of the samples `Y` (observed) and `P` (predicted). -/
def kernelValue (Y P : Fin 8192 → EReal) : EReal :=
  -((entropy (fun r => logMean (∑ j, gauss (Y r) (Y j)))
      + entropy (fun r => logMean (∑ j, gauss (P r) (P j))))
    - entropy (fun r => logMean (∑ j, gauss (Y r) (Y j) * gauss (P r) (P j))))

/-! ## The reference's form -/

/-- The clamped squared distance of two points of the line by the Gram expansion, the sums over the one
    coordinate starting from the literal zero. -/
def sqDist1 (a b : EReal) : EReal := max (((zero + a * a) + (zero + b * b)) - two * (a * b)) zero

/-- The clamped squared distance of two points `(a, a')`, `(b, b')` of the plane by the Gram expansion. -/
def sqDist2 (a a' b b' : EReal) : EReal :=
  max (((zero + (a * a + a' * a')) + (zero + (b * b + b' * b'))) - two * (a * b + a' * b')) zero

/-- One entry of the kernel matrix as the reference forms it from a squared distance. -/
def gaussRef (d : EReal) : EReal := Ideal.exp (Ideal.div (-d) twoSigmaSq)

/-- The logarithm of a row's mean over the other points, as the reference forms it. -/
def logMeanRef (S : EReal) : EReal := Ideal.log (Ideal.div (S - one) countLessOne + eps)

/-- What the reference returns, as a function of the samples `Y` (observed) and `P` (predicted). -/
def refValue (Y P : Fin 8192 → EReal) : EReal :=
  -((entropy (fun r => logMeanRef (zero + ∑ j, gaussRef (sqDist1 (Y r) (Y j))))
      + entropy (fun r => logMeanRef (zero + ∑ j, gaussRef (sqDist1 (P r) (P j)))))
    - entropy (fun r => logMeanRef (zero + ∑ j, gaussRef (sqDist2 (Y r) (P r) (Y j) (P j)))))

end Cert.Kde

end
-- ==== Proof.RefValue.lean ====
import proofs.«411726_j38293928411580_3_alg».proof.Proof.Gen.ReferenceIdeal.Run
import proofs.«411726_j38293928411580_3_alg».proof.Proof.Gen.ReferenceIdeal.Read
import proofs.«411726_j38293928411580_3_alg».proof.Proof.KdeSpec
import Idealize.ShloMosaic.Lib.ValueIdx
import Idealize.ShloMosaic.Lib.Pipeline.Value
import Idealize.ShloMosaic.PureOps.Ideal
import Mathlib.Algebra.BigOperators.Fin
import Mathlib.Algebra.BigOperators.Group.Finset.Basic

/-!
  The reference program's result, read operation by operation, is the specification's `refValue`.

  The program forms three kernel matrices: of the observed samples `Y` (argument 1 of @main), of the predicted
  samples `P` (argument 0), and of the joint samples `(Y, P)` (the two columns side by side). An entry is
  `exp (-(max (|x r|² + |x j|² - 2 ⟨x r, x j⟩) 0) / 2σ²)`, the squared norms a sum over the columns starting from the
  literal zero, the inner product the contraction over the columns. Each matrix gives an entropy: the row sums
  (from the literal zero), less one, over 8191, plus ε, the logarithm, the sum over the rows (from the literal
  zero), over 8192, negated. The result is `-((H(Y) + H(P)) - H(Y, P))`.

  Every step is an equation between extended reals at an explicit index: a rank-2 index is given by its two
  coordinates, a rank-1 index by its one; a sum over one or two columns is written out, and a sum over the
  rank-1 index set is re-indexed by the coordinate. Nothing here needs a finite sample.
-/

noncomputable section

namespace Cert.ReferenceIdeal.RefValue

open Cert.ReferenceIdeal Cert.ReferenceIdeal.Gen Cert.ReferenceIdeal.Read Cert.Kde
open Idealize.ShloMosaic Idealize.ShloMosaic.StableHlo Idealize.ShloMosaic.ValueIdx

/-- The samples as handed to @main: a rank-1 array of 8192 extended reals. -/
abbrev Samples := (⟨S8192, .f32⟩ : BufTy).Contents (Elt Ideal)

/-- Two index functions of rank at most two agree when they agree at each axis literal. -/
local macro "idx_rfl" : tactic =>
  `(tactic| exact funext fun a => by match a with | ⟨0, _⟩ => rfl | ⟨1, _⟩ => rfl)

/-! ## The reshaped columns and their concatenation, read at explicit coordinates -/

/-- The observed samples as a column: row `r` is sample `r`. -/
theorem v1_at (x1 : Samples) (r : Fin 8192) (c : Fin 1) :
    val_main_v1 (F := Ideal) x1 (ix2 r c) = x1 (ix1 r) := by
  rw [val_main_v1_apply]
  refine congrArg x1 (funext fun a => ?_)
  match a with
  | ⟨0, _⟩ => exact Fin.ext (by have := c.isLt; show r.val * 1 + c.val = r.val; omega)

/-- The predicted samples as a column: row `r` is sample `r`. -/
theorem v0_at (x0 : Samples) (r : Fin 8192) (c : Fin 1) :
    val_main_v0 (F := Ideal) x0 (ix2 r c) = x0 (ix1 r) := by
  rw [val_main_v0_apply]
  refine congrArg x0 (funext fun a => ?_)
  match a with
  | ⟨0, _⟩ => exact Fin.ext (by have := c.isLt; show r.val * 1 + c.val = r.val; omega)

/-- Column 0 of the joint samples is the observed sample. -/
theorem v2_at0 (x0 x1 : Samples) (r : Fin 8192) :
    val_main_v2 (F := Ideal) x0 x1 (ix2 r 0) = x1 (ix1 r) := by
  unfold val_main_v2
  rw [concatenate_pair_apply_left (1 : Fin S8192x2.rank) _ _ concatenates_S8192x1_S8192x1_S8192x2_d1 (ix2 r 0) rfl (ix2 r 0)
    (fun b => by match b with | ⟨0, _⟩ => rfl | ⟨1, _⟩ => rfl)]
  exact v1_at x1 r 0

/-- Column 1 of the joint samples is the predicted sample. -/
theorem v2_at1 (x0 x1 : Samples) (r : Fin 8192) :
    val_main_v2 (F := Ideal) x0 x1 (ix2 r 1) = x0 (ix1 r) := by
  unfold val_main_v2
  rw [concatenate_pair_apply_right (1 : Fin S8192x2.rank) _ _ concatenates_S8192x1_S8192x1_S8192x2_d1 (ix2 r 1) rfl rfl (ix2 r 0)
    (fun b hb => by match b with | ⟨0, _⟩ => rfl | ⟨1, _⟩ => exact absurd rfl hb) rfl]
  exact v0_at x0 r 0

/-! ## The three kernel matrices, entry by entry -/

/-- The kernel matrix of the observed samples at `(r, j)`. -/
theorem v49_at (x1 : Samples) (r j : Fin 8192) :
    val_main_v49 (F := Ideal) x1 (ix2 r j) = gaussRef (sqDist1 (x1 (ix1 r)) (x1 (ix1 j))) := by
  simp only [val_main_v49_apply, val_main_v48_apply, val_main_v47_apply, val_main_cst_12_apply,
    val_main_v46_apply, val_main_v45_apply, val_main_v44_apply, val_main_cst_11_apply,
    val_main_v43_apply, val_main_v42_apply, val_main_v41_apply, val_main_cst_10_apply,
    val_main_v40_apply, val_main_v39_apply, val_main_v38_apply, val_main_v37_apply, val_main_v36_apply,
    val_main_v35_apply, val_main_v34_apply, val_main_v33_apply, val_main_cst_9_apply, val_main_v32_apply,
    Fin.sum_univ_one]
  have e1 : idx_main_v33 (idx_main_v34 (idx_main_v36 (ix2 r j))) 0 = ix2 r 0 := by idx_rfl
  have e2 : idx_main_v33 (idx_main_v35 (idx_main_v37 (ix2 r j))) 0 = ix2 j 0 := by idx_rfl
  have e3 : lidx_main_v40 (ix2 r j) 0 = ix2 r 0 := by idx_rfl
  have e4 : idx_main_v39 (ridx_main_v40 (ix2 r j) 0) = ix2 j 0 := by idx_rfl
  rw [e1, e2, e3, e4, v1_at, v1_at]
  simp only [Ideal.hostUnary_exp_def, Ideal.hostDivf_def, Ideal.hostNegf_def, Ideal.negf_def, Ideal.maximumf_def,
    Ideal.subf_def, Ideal.addf_def, Ideal.mulf_def, Ideal.ofBits_def]
  rfl

/-- The kernel matrix of the predicted samples at `(r, j)`. -/
theorem v78_at (x0 : Samples) (r j : Fin 8192) :
    val_main_v78 (F := Ideal) x0 (ix2 r j) = gaussRef (sqDist1 (x0 (ix1 r)) (x0 (ix1 j))) := by
  simp only [val_main_v78_apply, val_main_v77_apply, val_main_v76_apply, val_main_cst_22_apply,
    val_main_v75_apply, val_main_v74_apply, val_main_v73_apply, val_main_cst_21_apply,
    val_main_v72_apply, val_main_v71_apply, val_main_v70_apply, val_main_cst_20_apply,
    val_main_v69_apply, val_main_v68_apply, val_main_v67_apply, val_main_v66_apply, val_main_v65_apply,
    val_main_v64_apply, val_main_v63_apply, val_main_v62_apply, val_main_cst_19_apply, val_main_v61_apply,
    Fin.sum_univ_one]
  have e1 : idx_main_v62 (idx_main_v63 (idx_main_v65 (ix2 r j))) 0 = ix2 r 0 := by idx_rfl
  have e2 : idx_main_v62 (idx_main_v64 (idx_main_v66 (ix2 r j))) 0 = ix2 j 0 := by idx_rfl
  have e3 : lidx_main_v69 (ix2 r j) 0 = ix2 r 0 := by idx_rfl
  have e4 : idx_main_v68 (ridx_main_v69 (ix2 r j) 0) = ix2 j 0 := by idx_rfl
  rw [e1, e2, e3, e4, v0_at, v0_at]
  simp only [Ideal.hostUnary_exp_def, Ideal.hostDivf_def, Ideal.hostNegf_def, Ideal.negf_def, Ideal.maximumf_def,
    Ideal.subf_def, Ideal.addf_def, Ideal.mulf_def, Ideal.ofBits_def]
  rfl

/-- The kernel matrix of the joint samples at `(r, j)`. -/
theorem v20_at (x0 x1 : Samples) (r j : Fin 8192) :
    val_main_v20 (F := Ideal) x0 x1 (ix2 r j)
      = gaussRef (sqDist2 (x1 (ix1 r)) (x0 (ix1 r)) (x1 (ix1 j)) (x0 (ix1 j))) := by
  simp only [val_main_v20_apply, val_main_v19_apply, val_main_v18_apply, val_main_cst_2_apply,
    val_main_v17_apply, val_main_v16_apply, val_main_v15_apply, val_main_cst_1_apply,
    val_main_v14_apply, val_main_v13_apply, val_main_v12_apply, val_main_cst_0_apply,
    val_main_v11_apply, val_main_v10_apply, val_main_v9_apply, val_main_v8_apply, val_main_v7_apply,
    val_main_v6_apply, val_main_v5_apply, val_main_v4_apply, val_main_cst_apply, val_main_v3_apply,
    Fin.sum_univ_two]
  have a0 : idx_main_v4 (idx_main_v5 (idx_main_v7 (ix2 r j))) 0 = ix2 r 0 := by idx_rfl
  have a1 : idx_main_v4 (idx_main_v5 (idx_main_v7 (ix2 r j))) 1 = ix2 r 1 := by idx_rfl
  have b0 : idx_main_v4 (idx_main_v6 (idx_main_v8 (ix2 r j))) 0 = ix2 j 0 := by idx_rfl
  have b1 : idx_main_v4 (idx_main_v6 (idx_main_v8 (ix2 r j))) 1 = ix2 j 1 := by idx_rfl
  have l0 : lidx_main_v11 (ix2 r j) 0 = ix2 r 0 := by idx_rfl
  have l1 : lidx_main_v11 (ix2 r j) 1 = ix2 r 1 := by idx_rfl
  have r0 : idx_main_v10 (ridx_main_v11 (ix2 r j) 0) = ix2 j 0 := by idx_rfl
  have r1 : idx_main_v10 (ridx_main_v11 (ix2 r j) 1) = ix2 j 1 := by idx_rfl
  rw [a0, a1, b0, b1, l0, l1, r0, r1, v2_at0, v2_at0, v2_at1, v2_at1]
  simp only [Ideal.hostUnary_exp_def, Ideal.hostDivf_def, Ideal.hostNegf_def, Ideal.negf_def, Ideal.maximumf_def,
    Ideal.subf_def, Ideal.addf_def, Ideal.mulf_def, Ideal.ofBits_def]
  rfl

/-! ## Row sums, and the logarithm of each row's mean -/

/-- The logarithm of row `r`'s mean, observed samples. -/
theorem v57_at (x1 : Samples) (r : Fin 8192) :
    val_main_v57 (F := Ideal) x1 (ix1 r)
      = logMeanRef (zero + ∑ j : Fin 8192, gaussRef (sqDist1 (x1 (ix1 r)) (x1 (ix1 j)))) := by
  simp only [val_main_v57_apply, val_main_v56_apply, val_main_v55_apply, val_main_cst_16_apply,
    val_main_v54_apply, val_main_v53_apply, val_main_cst_15_apply, val_main_v52_apply, val_main_v51_apply,
    val_main_cst_14_apply, val_main_v50_apply, val_main_cst_13_apply]
  have hs : ∑ k : Fin 8192, val_main_v49 (F := Ideal) x1 (idx_main_v50 (ix1 r) k)
      = ∑ j : Fin 8192, gaussRef (sqDist1 (x1 (ix1 r)) (x1 (ix1 j))) :=
    Finset.sum_congr rfl fun k _ => by
      have e : idx_main_v50 (ix1 r) k = ix2 r k := by idx_rfl
      rw [e, v49_at]
  rw [hs]
  simp only [Ideal.hostUnary_log_def, Ideal.hostDivf_def, Ideal.subf_def, Ideal.addf_def, Ideal.ofBits_def]
  rfl

/-- The logarithm of row `r`'s mean, predicted samples. -/
theorem v86_at (x0 : Samples) (r : Fin 8192) :
    val_main_v86 (F := Ideal) x0 (ix1 r)
      = logMeanRef (zero + ∑ j : Fin 8192, gaussRef (sqDist1 (x0 (ix1 r)) (x0 (ix1 j)))) := by
  simp only [val_main_v86_apply, val_main_v85_apply, val_main_v84_apply, val_main_cst_26_apply,
    val_main_v83_apply, val_main_v82_apply, val_main_cst_25_apply, val_main_v81_apply, val_main_v80_apply,
    val_main_cst_24_apply, val_main_v79_apply, val_main_cst_23_apply]
  have hs : ∑ k : Fin 8192, val_main_v78 (F := Ideal) x0 (idx_main_v79 (ix1 r) k)
      = ∑ j : Fin 8192, gaussRef (sqDist1 (x0 (ix1 r)) (x0 (ix1 j))) :=
    Finset.sum_congr rfl fun k _ => by
      have e : idx_main_v79 (ix1 r) k = ix2 r k := by idx_rfl
      rw [e, v78_at]
  rw [hs]
  simp only [Ideal.hostUnary_log_def, Ideal.hostDivf_def, Ideal.subf_def, Ideal.addf_def, Ideal.ofBits_def]
  rfl

/-- The logarithm of row `r`'s mean, joint samples. -/
theorem v28_at (x0 x1 : Samples) (r : Fin 8192) :
    val_main_v28 (F := Ideal) x0 x1 (ix1 r)
      = logMeanRef (zero + ∑ j : Fin 8192,
          gaussRef (sqDist2 (x1 (ix1 r)) (x0 (ix1 r)) (x1 (ix1 j)) (x0 (ix1 j)))) := by
  simp only [val_main_v28_apply, val_main_v27_apply, val_main_v26_apply, val_main_cst_6_apply,
    val_main_v25_apply, val_main_v24_apply, val_main_cst_5_apply, val_main_v23_apply, val_main_v22_apply,
    val_main_cst_4_apply, val_main_v21_apply, val_main_cst_3_apply]
  have hs : ∑ k : Fin 8192, val_main_v20 (F := Ideal) x0 x1 (idx_main_v21 (ix1 r) k)
      = ∑ j : Fin 8192, gaussRef (sqDist2 (x1 (ix1 r)) (x0 (ix1 r)) (x1 (ix1 j)) (x0 (ix1 j))) :=
    Finset.sum_congr rfl fun k _ => by
      have e : idx_main_v21 (ix1 r) k = ix2 r k := by idx_rfl
      rw [e, v20_at]
  rw [hs]
  simp only [Ideal.hostUnary_log_def, Ideal.hostDivf_def, Ideal.subf_def, Ideal.addf_def, Ideal.ofBits_def]
  rfl

/-! ## The three entropies -/

/-- A rank-1 index of extent 8192 is its one coordinate. -/
def ix1Equiv : Fin 8192 ≃ S8192.Idx where
  toFun := ix1
  invFun j := j 0
  left_inv _ := rfl
  right_inv j := (eq_ix1 j).symm

/-- A sum over the rank-1 index set is the sum over the coordinate. -/
theorem sum_ix1 (f : S8192.Idx → EReal) : ∑ j : S8192.Idx, f j = ∑ r : Fin 8192, f (ix1 r) :=
  (Equiv.sum_comp ix1Equiv f).symm

/-- The entropy of the observed samples. -/
theorem v60_at (x1 : Samples) (i : S_.Idx) :
    val_main_v60 (F := Ideal) x1 i
      = entropy (fun r => logMeanRef (zero + ∑ j : Fin 8192, gaussRef (sqDist1 (x1 (ix1 r)) (x1 (ix1 j))))) := by
  simp only [val_main_v60_apply, val_main_v59_apply, val_main_cst_18_apply, val_main_v58_apply,
    val_main_cst_17_apply]
  rw [sum_ix1, Finset.sum_congr rfl fun r _ => v57_at x1 r]
  simp only [Ideal.hostDivf_def, Ideal.hostNegf_def, Ideal.negf_def, Ideal.ofBits_def]
  rfl

/-- The entropy of the predicted samples. -/
theorem v89_at (x0 : Samples) (i : S_.Idx) :
    val_main_v89 (F := Ideal) x0 i
      = entropy (fun r => logMeanRef (zero + ∑ j : Fin 8192, gaussRef (sqDist1 (x0 (ix1 r)) (x0 (ix1 j))))) := by
  simp only [val_main_v89_apply, val_main_v88_apply, val_main_cst_28_apply, val_main_v87_apply,
    val_main_cst_27_apply]
  rw [sum_ix1, Finset.sum_congr rfl fun r _ => v86_at x0 r]
  simp only [Ideal.hostDivf_def, Ideal.hostNegf_def, Ideal.negf_def, Ideal.ofBits_def]
  rfl

/-- The entropy of the joint samples. -/
theorem v31_at (x0 x1 : Samples) (i : S_.Idx) :
    val_main_v31 (F := Ideal) x0 x1 i
      = entropy (fun r => logMeanRef (zero + ∑ j : Fin 8192,
          gaussRef (sqDist2 (x1 (ix1 r)) (x0 (ix1 r)) (x1 (ix1 j)) (x0 (ix1 j))))) := by
  simp only [val_main_v31_apply, val_main_v30_apply, val_main_cst_8_apply, val_main_v29_apply,
    val_main_cst_7_apply]
  rw [sum_ix1, Finset.sum_congr rfl fun r _ => v28_at x0 x1 r]
  simp only [Ideal.hostDivf_def, Ideal.hostNegf_def, Ideal.negf_def, Ideal.ofBits_def]
  rfl

/-! ## The result -/

/-- The reference's result is the specification's value of the observed samples (argument 1 of @main) and the
    predicted samples (argument 0). -/
theorem ref_value
    (x0 x1 : (⟨Cert.ReferenceIdeal.S8192, .f32⟩ : BufTy).Contents (Elt Ideal)) :
    Cert.ReferenceIdeal.Read.val_main_v92 (F := Ideal) x0 x1
      = fun _ => Cert.Kde.refValue (fun r => x1 (ValueIdx.ix1 r)) (fun r => x0 (ValueIdx.ix1 r)) := by
  funext i
  rw [val_main_v92_apply, val_main_v91_apply, val_main_v90_apply, v60_at, v89_at, v31_at]
  simp only [Ideal.hostNegf_def, Ideal.negf_def, Ideal.subf_def, Ideal.addf_def]
  rfl

end Cert.ReferenceIdeal.RefValue

end
-- ==== Proof.KdeAlgebra.lean ====
/-
  The two forms of the Gaussian-kernel entropy estimate agree on finite samples.

  On real samples the reference's Gram-expansion squared distance is the plain one: over the reals
  `(a·a + b·b) - 2·(a·b) = (a - b)·(a - b)`, a square, so the clamp at zero is the identity; in the plane
  the same holds coordinate by coordinate.  Dividing the negated distance by the dyadic
  `D = 5368709/268435456` is multiplying the distance by `-1/D = -268435456/5368709`, the kernel's scale.
  The joint entry `exp (-(dy² + dp²)/D)` is the product `exp (dy²·s) · exp (dp²·s)` since `exp` turns sums
  into products.  Division by `8191` is the product with `1/8191` on every extended real, so the logarithm of
  a row's mean is the same function in both forms with no finiteness needed.

  Every algebraic step is done on the reals under the coercion: the extended reals are not a ring.
-/
import proofs.«411726_j38293928411580_3_alg».proof.Proof.KdeSpec
import Idealize.ShloMosaic.PureOps.Ideal
import Idealize.ShloMosaic.PureOps.Ideal.Laws
import Mathlib.Data.EReal.Basic
import Mathlib.Data.EReal.Operations
import Mathlib.Analysis.Complex.Exponential

noncomputable section

namespace Cert.Kde

open Idealize.ShloMosaic

/-! ## The literals as extended reals -/

/-- The word of `+0.0` denotes `0`. -/
theorem zero_eq : zero = 0 := Ideal.ofBits_zero_f32

/-- The word `0x40000000` (exponent field 128, no fraction) denotes `2^23 · 2^(128-127-23) = 2`. -/
theorem two_eq : two = ((2 : ℝ) : EReal) := by
  simp [Ideal.ofBits, Ideal.ieee, -EReal.coe_mul]; norm_num

/-- The word `0x3CA3D70A` (exponent field 121, fraction 2348810) denotes
    `(2^23 + 2348810) · 2^(121-127-23) = 10737418 / 2^29 = 5368709/268435456`. -/
theorem twoSigmaSq_eq : twoSigmaSq = ((5368709 / 268435456 : ℝ) : EReal) := by
  simp [Ideal.ofBits, Ideal.ieee, -EReal.coe_mul]; norm_num

/-- The word `0x45FFF800` (exponent field 139, fraction 8386560) denotes
    `(2^23 + 8386560) · 2^(139-127-23) = 16775168 / 2^11 = 8191`. -/
theorem countLessOne_eq : countLessOne = ((8191 : ℝ) : EReal) := by
  simp [Ideal.ofBits, Ideal.ieee, -EReal.coe_mul]; norm_num

/-! ## The squared distances on real points -/

/-- On the line the Gram expansion, clamped at zero, is the square of the difference. -/
theorem sqDist1_coe (a b : ℝ) :
    sqDist1 (a : EReal) (b : EReal) = (((a - b) * (a - b) : ℝ) : EReal) := by
  have h : (((zero + (a : EReal) * a) + (zero + (b : EReal) * b)) - two * ((a : EReal) * b))
      = (((a - b) * (a - b) : ℝ) : EReal) := by
    rw [zero_eq, two_eq, zero_add, zero_add]
    norm_cast
    ring_nf
  have h0 : (0 : EReal) ≤ (((a - b) * (a - b) : ℝ) : EReal) := by
    exact_mod_cast mul_self_nonneg (a - b)
  unfold sqDist1
  rw [h, zero_eq]
  exact max_eq_left h0

/-- In the plane the Gram expansion, clamped at zero, is the sum of the squares of the differences. -/
theorem sqDist2_coe (a a' b b' : ℝ) :
    sqDist2 (a : EReal) (a' : EReal) (b : EReal) (b' : EReal)
      = (((a - b) * (a - b) + (a' - b') * (a' - b') : ℝ) : EReal) := by
  have h : (((zero + ((a : EReal) * a + (a' : EReal) * a')) + (zero + ((b : EReal) * b + (b' : EReal) * b')))
        - two * ((a : EReal) * b + (a' : EReal) * b'))
      = (((a - b) * (a - b) + (a' - b') * (a' - b') : ℝ) : EReal) := by
    rw [zero_eq, two_eq, zero_add, zero_add]
    norm_cast
    ring_nf
  have h0 : (0 : EReal) ≤ (((a - b) * (a - b) + (a' - b') * (a' - b') : ℝ) : EReal) := by
    exact_mod_cast add_nonneg (mul_self_nonneg (a - b)) (mul_self_nonneg (a' - b'))
  unfold sqDist2
  rw [h, zero_eq]
  exact max_eq_left h0

/-! ## The kernel entries -/

/-- The reference's entry from a real squared distance `d`: `exp (d · (-1/D))`. -/
theorem gaussRef_coe (d : ℝ) :
    gaussRef (d : EReal) = ((Real.exp (d * (-268435456 / 5368709)) : ℝ) : EReal) := by
  unfold gaussRef
  rw [twoSigmaSq_eq, Ideal.div_coe (by norm_num), ← EReal.coe_neg, ← EReal.coe_mul, Ideal.exp_coe]
  congr 2
  ring

/-- The kernel's entry on real points: `exp ((a - b)² · (-1/D))`. -/
theorem gauss_coe (a b : ℝ) :
    gauss (a : EReal) (b : EReal)
      = ((Real.exp (((a - b) * (a - b)) * (-268435456 / 5368709)) : ℝ) : EReal) := by
  unfold gauss scale
  rw [← EReal.coe_sub, ← EReal.coe_mul, ← EReal.coe_mul, Ideal.exp_coe]

/-- On the line the reference's entry is the kernel's. -/
theorem gaussRef_sqDist1 (a b : ℝ) :
    gaussRef (sqDist1 (a : EReal) (b : EReal)) = gauss (a : EReal) (b : EReal) := by
  rw [sqDist1_coe, gaussRef_coe, gauss_coe]

/-- In the plane the reference's entry is the product of the kernel's two entries. -/
theorem gaussRef_sqDist2 (a a' b b' : ℝ) :
    gaussRef (sqDist2 (a : EReal) (a' : EReal) (b : EReal) (b' : EReal))
      = gauss (a : EReal) (b : EReal) * gauss (a' : EReal) (b' : EReal) := by
  rw [sqDist2_coe, gaussRef_coe, gauss_coe, gauss_coe, ← EReal.coe_mul, ← Real.exp_add, add_mul]

/-! ## The logarithm of a row's mean -/

/-- Division by `8191` is the product with `1/8191` on every extended real. -/
theorem logMeanRef_eq (S : EReal) : logMeanRef S = logMean S := by
  unfold logMeanRef logMean invCount
  rw [countLessOne_eq, Ideal.div_coe (by norm_num)]

/-! ## Assembly -/

theorem refValue_eq_kernelValue (Y P : Fin 8192 → EReal)
    (hY : ∀ r, ∃ a : ℝ, Y r = (a : EReal)) (hP : ∀ r, ∃ a : ℝ, P r = (a : EReal)) :
    refValue Y P = kernelValue Y P := by
  choose y hy using hY
  choose p hp using hP
  unfold refValue kernelValue
  simp only [hy, hp, logMeanRef_eq, zero_eq, zero_add, gaussRef_sqDist1, gaussRef_sqDist2]

end Cert.Kde

end
-- ==== Proof.Finite.lean ====
import proofs.«411726_j38293928411580_3_alg».proof.Pre_finite_inputs
import Idealize.ShloMosaic.PureOps.Ideal
import Idealize.ShloMosaic.PureOps.Ideal.Laws
import Idealize.ShloMosaic.Lib.ReduceAll
import Idealize.ShloMosaic.Lib.ValueIdx
import Mathlib.Data.EReal.Basic

/-!
  The precondition read back: it says that every sample of both inputs has an absolute value
  strictly below `+∞`. Over the extended reals the absolute value is `max x (-x)`, so such a
  sample is neither `⊤` nor `⊥`: it is a real number.
-/

namespace Cert.Kde

open Idealize.ShloMosaic

/-- An extended real whose absolute value `max x (-x)` is strictly below `⊤` is a real number:
    at `⊥` the negation is `⊤`, at `⊤` the value itself is, and in both cases the maximum is `⊤`. -/
theorem real_of_abs_lt_top (x : EReal) (h : max x (-x) < ⊤) : ∃ a : ℝ, x = (a : EReal) := by
  induction x using EReal.rec with
  | bot => simp at h
  | coe a => exact ⟨a, rfl⟩
  | top => simp at h

/-- The f32 word `0x7F800000` (sign 0, exponent all ones, fraction 0) denotes `+∞`. -/
theorem ofBits_inf_f32 : Ideal.ofBits .f32 0x7F800000#32 = (⊤ : EReal) := by
  simp [Ideal.ofBits, Ideal.ieee]

/-- One element of the printed test: the comparison `|x| < +∞` holding says `x` is real. -/
theorem real_of_cmp_abs (x : Ideal .f32)
    (h : FloatOps.cmpf (F := Ideal) .olt (FloatOps.hostAbsf x) (FloatOps.ofBits .f32 0x7F800000#32) = 1#1) :
    ∃ a : ℝ, x = (a : EReal) := by
  rw [Ideal.hostAbsf_def, Ideal.cmpf_def, Ideal.absf_def, Ideal.ofBits_def, ofBits_inf_f32] at h
  refine real_of_abs_lt_top x ?_
  by_contra hn
  simp [Ideal.cmp, hn] at h

/-- The scalar result shape has exactly one index. -/
instance : Subsingleton Cert.Pre_finite_inputs.S_.Idx := ⟨fun a b => funext fun d => d.elim0⟩

/-- The precondition holding says every sample of both inputs is a real number. -/
theorem real_of_pre [Cert.Pre_finite_inputs.Facts] (x0 x1 : FVec Ideal Cert.Pre_finite_inputs.S8192 .f32)
    (h : Cert.Pre_finite_inputs.fn (F := Ideal) x0 x1 = fun _ => 1#1) :
    (∀ i, ∃ a : ℝ, x0 i = (a : EReal)) ∧ (∀ i, ∃ a : ℝ, x1 i = (a : EReal)) := by
  have h0 := congrFun h ValueIdx.ix0
  dsimp only [Cert.Pre_finite_inputs.fn] at h0
  obtain ⟨h1, h2⟩ := IntOp.andi_eq_one.1 h0
  exact ⟨fun i => real_of_cmp_abs (x0 i) (Host.reduce_andi_all _ _ _ _ _ h1 i),
    fun i => real_of_cmp_abs (x1 i) (Host.reduce_andi_all _ _ _ _ _ h2 i)⟩

end Cert.Kde
-- ==== Proof.KernelFold.lean ====
/-
  The kernel body's column loop as a closed expression.

  At one grid point the body holds a block of 512 observed samples `x0` and 512 predicted samples `x1`
  (columns [512, 1]) and the full rows `X2`, `X3` of all 8192 observed and predicted samples ([1, 8192]).
  It walks the 8192 columns in four chunks of 2048; trip `k` adds to three carried column vectors the row
  sums, over chunk `k`, of the Gaussian kernel of the observed samples, of the predicted samples, and of
  their product. `step` is one trip as a function of the carried triple; `fold4` the four trips from the
  zero vectors.
-/
import proofs.«411726_j38293928411580_3_alg».proof.Proof.Gen.KernelIdeal.Skeleton
import Idealize.ShloMosaic.Lib.Pipeline.FrameBody

noncomputable section

namespace Cert.KernelIdeal.KValue

open Idealize.ShloMosaic Idealize.SL.Sem Cert.KernelIdeal Cert.KernelIdeal.Gen

variable {F : FTy → Type} [FloatOps F] [Named F]

/-- The three carried column vectors. -/
abbrev Acc (F : FTy → Type) [FloatOps F] : Type := FVec F S512x1 .f32 × FVec F S512x1 .f32 × FVec F S512x1 .f32

/-- Columns `2048 k … 2048 k + 2047` of a full row: what trip `k` loads. -/
abbrev chunk (X : Vec F S1x8192 .f32) (k : Fin k0_t1_loop.trips) : Vec F S1x2048 .f32 :=
  View.ld X (Rect.unit (s := S1x8192) (k0_off1 k) S1x2048.size (k0_off1_inb k))

/-- One trip of the column loop on the carried triple. -/
def step (x0 x1 : Vec F S512x1 .f32) (X2 X3 : Vec F S1x8192 .f32) (k : Fin k0_t1_loop.trips) (acc : Acc F) : Acc F :=
  (k0_pay4 x0 acc.1 (chunk X2 k), k0_pay5 x1 acc.2.1 (chunk X3 k), k0_pay6 x0 x1 acc.2.2 (chunk X2 k) (chunk X3 k))

theorem trips_eq : k0_t1_loop.trips = 4 := by decide

/-- The four trips from the zero vectors. -/
def fold4 (x0 x1 : Vec F S512x1 .f32) (X2 X3 : Vec F S1x8192 .f32) : Acc F :=
  step x0 x1 X2 X3 ⟨3, by decide⟩ (step x0 x1 X2 X3 ⟨2, by decide⟩ (step x0 x1 X2 X3 ⟨1, by decide⟩
    (step x0 x1 X2 X3 ⟨0, by decide⟩ (k0_pay1, k0_pay1, k0_pay1))))

end Cert.KernelIdeal.KValue

end
-- ==== Proof.KernelTrip.lean ====
/-
  The kernel body's run read as values.

  The generated run of the body carries the column loop as a recursion over an opaque trip; opened once, a trip
  is `step` (one chunk's row sums added to the three carried vectors), so the loop's result is `fold4`, and
  what the body leaves in each of its three output blocks is the transposed logarithm-of-mean payload of the
  corresponding carried vector.
-/
import proofs.«411726_j38293928411580_3_alg».proof.Proof.Gen.KernelIdeal.Frame
import proofs.«411726_j38293928411580_3_alg».proof.Proof.KernelFold
import Idealize.ShloMosaic.Lib.Pipeline.Value

set_option maxRecDepth 16384

noncomputable section

namespace Cert.KernelIdeal.KValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

/-- The zero offsets of a whole-block rectangle. -/
theorem hz2 : (![0, 0] : Fin 2 → Nat) = fun _ => 0 :=
  funext fun a => by match a with | ⟨0, _⟩ => rfl | ⟨1, _⟩ => rfl

/-- One trip of the generated run, on whole row buffers holding `x2`, `x3`, is `step`. -/
theorem tripR_eq_step (𝒱 : Variants) (c : Dev nD) (bd : Option 𝒱.V) (i : grid0.Coords) (arg1 : Memref sig .tc .vmem S512x1 .f32) (harg1 : arg1.IsWhole) (arg2 : Memref sig .tc .vmem S512x1 .f32) (harg2 : arg2.IsWhole) (arg3 : Memref sig .tc .vmem S1x8192 .f32) (harg3 : arg3.IsWhole) (arg4 : Memref sig .tc .vmem S1x8192 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (v0 v2 : Vec F S512x1 .f32) (x2 x3 : Vec F S1x8192 .f32)
    (k : Fin k0_t1_loop.trips) (acc : Acc F) :
    tripR_k0_t1 (F := F) 𝒱 c bd i arg1 harg1 arg2 harg2 arg3 harg3 arg4 harg4 arg5 harg5 arg6 harg6 arg7 harg7 v0 v2 (harg3.unread x2) (harg4.unread x3) k acc
      = step v0 v2 x2 x3 k acc := by
  unfold tripR_k0_t1 trip_k0_t1 step chunk
  dsimp only
  simp only [View.readAt_eq_ld, harg3.read_unread, harg4.read_unread]

/-- The carried triple after the four trips is `fold4`. -/
theorem st_four (𝒱 : Variants) (c : Dev nD) (bd : Option 𝒱.V) (i : grid0.Coords) (arg1 : Memref sig .tc .vmem S512x1 .f32) (harg1 : arg1.IsWhole) (arg2 : Memref sig .tc .vmem S512x1 .f32) (harg2 : arg2.IsWhole) (arg3 : Memref sig .tc .vmem S1x8192 .f32) (harg3 : arg3.IsWhole) (arg4 : Memref sig .tc .vmem S1x8192 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (v0 v2 : Vec F S512x1 .f32) (x2 x3 : Vec F S1x8192 .f32) :
    st_k0_t1 (F := F) 𝒱 c bd i arg1 harg1 arg2 harg2 arg3 harg3 arg4 harg4 arg5 harg5 arg6 harg6 arg7 harg7 v0 v2 (harg3.unread x2) (harg4.unread x3) (k0_pay1, k0_pay1, k0_pay1) 4
      = fold4 v0 v2 x2 x3 := by
  have h0 := st_k0_t1_succ (F := F) 𝒱 c bd i arg1 harg1 arg2 harg2 arg3 harg3 arg4 harg4 arg5 harg5 arg6 harg6 arg7 harg7 v0 v2 (harg3.unread x2) (harg4.unread x3) (k0_pay1, k0_pay1, k0_pay1) ⟨0, by decide⟩
  have h1 := st_k0_t1_succ (F := F) 𝒱 c bd i arg1 harg1 arg2 harg2 arg3 harg3 arg4 harg4 arg5 harg5 arg6 harg6 arg7 harg7 v0 v2 (harg3.unread x2) (harg4.unread x3) (k0_pay1, k0_pay1, k0_pay1) ⟨1, by decide⟩
  have h2 := st_k0_t1_succ (F := F) 𝒱 c bd i arg1 harg1 arg2 harg2 arg3 harg3 arg4 harg4 arg5 harg5 arg6 harg6 arg7 harg7 v0 v2 (harg3.unread x2) (harg4.unread x3) (k0_pay1, k0_pay1, k0_pay1) ⟨2, by decide⟩
  have h3 := st_k0_t1_succ (F := F) 𝒱 c bd i arg1 harg1 arg2 harg2 arg3 harg3 arg4 harg4 arg5 harg5 arg6 harg6 arg7 harg7 v0 v2 (harg3.unread x2) (harg4.unread x3) (k0_pay1, k0_pay1, k0_pay1) ⟨3, by decide⟩
  rw [tripR_eq_step] at h0 h1 h2 h3
  unfold fold4
  refine h3.trans ?_
  refine congrArg _ (h2.trans ?_)
  refine congrArg _ (h1.trans ?_)
  exact congrArg _ h0

/-- What the body leaves in output window 4's block. -/
theorem out4_eq (c : Dev nD) (i : grid0.Coords) (arg1 : Memref sig .tc .vmem S512x1 .f32) (harg1 : arg1.IsWhole) (arg2 : Memref sig .tc .vmem S512x1 .f32) (harg2 : arg2.IsWhole) (arg3 : Memref sig .tc .vmem S1x8192 .f32) (harg3 : arg3.IsWhole) (arg4 : Memref sig .tc .vmem S1x8192 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (x0 x1 : Vec F S512x1 .f32) (x2 x3 : Vec F S1x8192 .f32) :
    out0_A_4 c i arg1 harg1 arg2 harg2 arg3 harg3 arg4 harg4 arg5 harg5 arg6 harg6 arg7 harg7 x0 x1 x2 x3 = k0_pay7 (fold4 x0 x1 x2 x3).1 := by
  unfold out0_A_4
  rw [View.read_writes_eq_canon _ _ _ (cover0_A_4 c i arg1 harg1 arg2 harg2 arg3 harg3 arg4 harg4 arg5 harg5 arg6 harg6 arg7 harg7 x0 x1 x2 x3)]
  unfold kernelRun0_A
  dsimp only
  sl_unfold_words
  rw [View.canon_unit_zero hz2]
  simp only [View.readAt_eq_ld, harg1.read_unread, harg2.read_unread, View.ld_unit_zero (S := S512x1) hz2]
  rw [show Scf.trips (0#32) (Scalar.addi 0#32 4#32) 1#32 = 4 from by decide, st_four]

/-- What the body leaves in output window 5's block. -/
theorem out5_eq (c : Dev nD) (i : grid0.Coords) (arg1 : Memref sig .tc .vmem S512x1 .f32) (harg1 : arg1.IsWhole) (arg2 : Memref sig .tc .vmem S512x1 .f32) (harg2 : arg2.IsWhole) (arg3 : Memref sig .tc .vmem S1x8192 .f32) (harg3 : arg3.IsWhole) (arg4 : Memref sig .tc .vmem S1x8192 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (x0 x1 : Vec F S512x1 .f32) (x2 x3 : Vec F S1x8192 .f32) :
    out0_A_5 c i arg1 harg1 arg2 harg2 arg3 harg3 arg4 harg4 arg5 harg5 arg6 harg6 arg7 harg7 x0 x1 x2 x3 = k0_pay8 (fold4 x0 x1 x2 x3).2.1 := by
  unfold out0_A_5
  rw [View.read_writes_eq_canon _ _ _ (cover0_A_5 c i arg1 harg1 arg2 harg2 arg3 harg3 arg4 harg4 arg5 harg5 arg6 harg6 arg7 harg7 x0 x1 x2 x3)]
  unfold kernelRun0_A
  dsimp only
  sl_unfold_words
  rw [View.canon_unit_zero hz2]
  simp only [View.readAt_eq_ld, harg1.read_unread, harg2.read_unread, View.ld_unit_zero (S := S512x1) hz2]
  rw [show Scf.trips (0#32) (Scalar.addi 0#32 4#32) 1#32 = 4 from by decide, st_four]

/-- What the body leaves in output window 6's block. -/
theorem out6_eq (c : Dev nD) (i : grid0.Coords) (arg1 : Memref sig .tc .vmem S512x1 .f32) (harg1 : arg1.IsWhole) (arg2 : Memref sig .tc .vmem S512x1 .f32) (harg2 : arg2.IsWhole) (arg3 : Memref sig .tc .vmem S1x8192 .f32) (harg3 : arg3.IsWhole) (arg4 : Memref sig .tc .vmem S1x8192 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (x0 x1 : Vec F S512x1 .f32) (x2 x3 : Vec F S1x8192 .f32) :
    out0_A_6 c i arg1 harg1 arg2 harg2 arg3 harg3 arg4 harg4 arg5 harg5 arg6 harg6 arg7 harg7 x0 x1 x2 x3 = k0_pay9 (fold4 x0 x1 x2 x3).2.2 := by
  unfold out0_A_6
  rw [View.read_writes_eq_canon _ _ _ (cover0_A_6 c i arg1 harg1 arg2 harg2 arg3 harg3 arg4 harg4 arg5 harg5 arg6 harg6 arg7 harg7 x0 x1 x2 x3)]
  unfold kernelRun0_A
  dsimp only
  sl_unfold_words
  rw [View.canon_unit_zero hz2]
  simp only [View.readAt_eq_ld, harg1.read_unread, harg2.read_unread, View.ld_unit_zero (S := S512x1) hz2]
  rw [show Scf.trips (0#32) (Scalar.addi 0#32 4#32) 1#32 = 4 from by decide, st_four]

end Cert.KernelIdeal.KValue

end
-- ==== Proof.KernelPayload.lean ====
/-
  The kernel body's arithmetic read at an index, on the extended reals.

  One trip of the column loop adds to a carried column vector, at row `q`, the sum over the trip's 2048
  columns of the Gaussian kernel of the block's sample at row `q` and the row's sample at that column (for the
  third vector: of the product of the two kernels). The four trips from the zero vector therefore leave, at row
  `q`, the sum over all 8192 columns: the columns `2048 k + l`, `k < 4`, `l < 2048`, are every column once.
  What the body stores is the logarithm of the row mean over the other points, transposed to a row.
-/
import proofs.«411726_j38293928411580_3_alg».proof.Proof.KernelFold
import proofs.«411726_j38293928411580_3_alg».proof.Proof.KdeSpec
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.IdealRules
import Mathlib.Algebra.BigOperators.Fin
import Mathlib.Logic.Equiv.Fin.Basic

noncomputable section

open scoped BigOperators

namespace Cert.KernelIdeal.KValue

open Idealize.ShloMosaic Cert.KernelIdeal Cert.KernelIdeal.Gen ValueIdx

/-! ## Two layout operations read at an index -/

/-- A column `[a, 1]` broadcast along the columns of `[a, b]` reads, at `(p, c)`, the column at `p`. -/
theorem broadcastTo_col_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to the column `[a, 1]` reads, at `(i, u)`, the vector at `i`. -/
theorem shapeCast_col_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## The named constants -/

/-- The kernel's named scale denotes the rational `-1/D`. -/
theorem named_scale :
    Named.named (F := Ideal) κ "neg_inv_two_sigma_sq" (φ := .f32) 0xC2480000#32 = Cert.Kde.scale :=
  IdealRules.named_const.ideal_named_scalar _ _ _ _ rfl

/-- The kernel's named reciprocal denotes the rational `1/8191`. -/
theorem named_invCount :
    Named.named (F := Ideal) κ "inv_nm1" (φ := .f32) 0x39000400#32 = Cert.Kde.invCount :=
  IdealRules.named_const.ideal_named_scalar _ _ _ _ rfl

/-! ## The payloads at an index -/

/-- The zero column. -/
theorem pay1_apply (i : S512x1.Idx) : k0_pay1 (F := Ideal) i = 0 := by
  unfold k0_pay1
  show Ideal.ofBits .f32 0x00000000#32 = 0
  exact Ideal.ofBits_zero_f32

/-- The kernel matrix of the observed samples, at row `q` and column `l` of a chunk. -/
theorem pay2_apply (v0 : Vec Ideal S512x1 .f32) (v37 : Vec Ideal S1x2048 .f32) (q : Fin 512) (l : Fin 2048) :
    k0_pay2 (F := Ideal) v0 v37 (ix2 q l)
      = Cert.Kde.gauss (v0 (ix2 q (0 : Fin 1))) (v37 (ix2 (0 : Fin 1) l)) := by
  unfold k0_pay2 Cert.Kde.gauss
  simp only [shapeCast_self]
  show Ideal.exp (((broadcastTo S512x2048 v0 broadcasts_S512x1_S512x2048 (ix2 q l)
        - broadcastTo S512x2048 v37 broadcasts_S1x2048_S512x2048 (ix2 q l))
      * (broadcastTo S512x2048 v0 broadcasts_S512x1_S512x2048 (ix2 q l)
        - broadcastTo S512x2048 v37 broadcasts_S1x2048_S512x2048 (ix2 q l)))
      * Named.named (F := Ideal) κ "neg_inv_two_sigma_sq" (φ := .f32) 0xC2480000#32) = _
  rw [broadcastTo_col_apply, broadcastTo_1b_ab_apply, named_scale]

/-- The kernel matrix of the predicted samples, at row `q` and column `l` of a chunk. -/
theorem pay3_apply (v2 : Vec Ideal S512x1 .f32) (v40 : Vec Ideal S1x2048 .f32) (q : Fin 512) (l : Fin 2048) :
    k0_pay3 (F := Ideal) v2 v40 (ix2 q l)
      = Cert.Kde.gauss (v2 (ix2 q (0 : Fin 1))) (v40 (ix2 (0 : Fin 1) l)) := by
  unfold k0_pay3 Cert.Kde.gauss
  simp only [shapeCast_self]
  show Ideal.exp (((broadcastTo S512x2048 v2 broadcasts_S512x1_S512x2048 (ix2 q l)
        - broadcastTo S512x2048 v40 broadcasts_S1x2048_S512x2048 (ix2 q l))
      * (broadcastTo S512x2048 v2 broadcasts_S512x1_S512x2048 (ix2 q l)
        - broadcastTo S512x2048 v40 broadcasts_S1x2048_S512x2048 (ix2 q l)))
      * Named.named (F := Ideal) κ "neg_inv_two_sigma_sq" (φ := .f32) 0xC2480000#32) = _
  rw [broadcastTo_col_apply, broadcastTo_1b_ab_apply, named_scale]

/-- The sum of a `[512, 2048]` matrix along its rows, kept as a column, at row `q`: the sum of the row. -/
theorem rowSum_apply (src : FVec Ideal S512x2048 .f32) (q : Fin 512) :
    shapeCast S512x1 (multiReduction (F := Ideal) .add [1] S512 src 0x00000000#32 reduces_S512x2048_S512 (.inl rfl) rfl)
        shapeCasts_S512_S512x1 (ix2 q (0 : Fin 1))
      = ∑ l : Fin 2048, src (ix2 q l) := by
  refine (shapeCast_col_apply _ _ q (0 : Fin 1)).trans ?_
  refine (Ideal.multiReduction_add_single src 0x00000000#32 reduces_S512x2048_S512 (.inl rfl) rfl (ix1 q)).trans ?_
  refine Finset.sum_congr rfl fun l _ => congrArg src ?_
  funext a
  match a with
  | ⟨0, _⟩ => rfl
  | ⟨1, _⟩ => rfl

/-- One trip on the first carried vector, at row `q`: the carried value plus the chunk's row sum. -/
theorem pay4_apply (v0 : Vec Ideal S512x1 .f32) (acc : FVec Ideal S512x1 .f32) (v37 : Vec Ideal S1x2048 .f32)
    (q : Fin 512) :
    k0_pay4 (F := Ideal) v0 acc v37 (ix2 q (0 : Fin 1))
      = acc (ix2 q (0 : Fin 1))
        + ∑ l : Fin 2048, Cert.Kde.gauss (v0 (ix2 q (0 : Fin 1))) (v37 (ix2 (0 : Fin 1) l)) := by
  unfold k0_pay4
  refine (addf_apply acc _ (ix2 q (0 : Fin 1))).trans ?_
  refine congrArg (acc (ix2 q (0 : Fin 1)) + ·) ?_
  refine (rowSum_apply _ q).trans ?_
  exact Finset.sum_congr rfl fun l _ => pay2_apply v0 v37 q l

/-- One trip on the second carried vector, at row `q`. -/
theorem pay5_apply (v2 : Vec Ideal S512x1 .f32) (acc : FVec Ideal S512x1 .f32) (v40 : Vec Ideal S1x2048 .f32)
    (q : Fin 512) :
    k0_pay5 (F := Ideal) v2 acc v40 (ix2 q (0 : Fin 1))
      = acc (ix2 q (0 : Fin 1))
        + ∑ l : Fin 2048, Cert.Kde.gauss (v2 (ix2 q (0 : Fin 1))) (v40 (ix2 (0 : Fin 1) l)) := by
  unfold k0_pay5
  refine (addf_apply acc _ (ix2 q (0 : Fin 1))).trans ?_
  refine congrArg (acc (ix2 q (0 : Fin 1)) + ·) ?_
  refine (rowSum_apply _ q).trans ?_
  exact Finset.sum_congr rfl fun l _ => pay3_apply v2 v40 q l

/-- One trip on the third carried vector, at row `q`: the row sum of the product of the two kernel matrices. -/
theorem pay6_apply (v0 v2 : Vec Ideal S512x1 .f32) (acc : FVec Ideal S512x1 .f32) (v37 v40 : Vec Ideal S1x2048 .f32)
    (q : Fin 512) :
    k0_pay6 (F := Ideal) v0 v2 acc v37 v40 (ix2 q (0 : Fin 1))
      = acc (ix2 q (0 : Fin 1))
        + ∑ l : Fin 2048, Cert.Kde.gauss (v0 (ix2 q (0 : Fin 1))) (v37 (ix2 (0 : Fin 1) l))
            * Cert.Kde.gauss (v2 (ix2 q (0 : Fin 1))) (v40 (ix2 (0 : Fin 1) l)) := by
  unfold k0_pay6
  refine (addf_apply acc _ (ix2 q (0 : Fin 1))).trans ?_
  refine congrArg (acc (ix2 q (0 : Fin 1)) + ·) ?_
  refine (rowSum_apply _ q).trans ?_
  refine Finset.sum_congr rfl fun l _ => ?_
  refine (mulf_apply _ _ (ix2 q l)).trans ?_
  rw [pay2_apply, pay3_apply]

/-- What the body stores of a carried vector: the logarithm of the row mean over the other points, as a row. -/
theorem pay7_apply (v6 : FVec Ideal S512x1 .f32) (q : Fin 512) :
    k0_pay7 (F := Ideal) v6 (ix2 (0 : Fin 1) q) = Cert.Kde.logMean (v6 (ix2 q (0 : Fin 1))) := by
  unfold k0_pay7 Cert.Kde.logMean
  refine (transpose_ix2_apply _ _ (0 : Fin 1) q).trans ?_
  show Ideal.log ((v6 (ix2 q (0 : Fin 1)) - Ideal.ofBits .f32 0x3F800000#32)
      * Named.named (F := Ideal) κ "inv_nm1" (φ := .f32) 0x39000400#32 + Ideal.ofBits .f32 0x322BCC77#32) = _
  rw [named_invCount]

theorem pay8_apply (v6 : FVec Ideal S512x1 .f32) (q : Fin 512) :
    k0_pay8 (F := Ideal) v6 (ix2 (0 : Fin 1) q) = Cert.Kde.logMean (v6 (ix2 q (0 : Fin 1))) := by
  unfold k0_pay8 Cert.Kde.logMean
  refine (transpose_ix2_apply _ _ (0 : Fin 1) q).trans ?_
  show Ideal.log ((v6 (ix2 q (0 : Fin 1)) - Ideal.ofBits .f32 0x3F800000#32)
      * Named.named (F := Ideal) κ "inv_nm1" (φ := .f32) 0x39000400#32 + Ideal.ofBits .f32 0x322BCC77#32) = _
  rw [named_invCount]

theorem pay9_apply (v6 : FVec Ideal S512x1 .f32) (q : Fin 512) :
    k0_pay9 (F := Ideal) v6 (ix2 (0 : Fin 1) q) = Cert.Kde.logMean (v6 (ix2 q (0 : Fin 1))) := by
  unfold k0_pay9 Cert.Kde.logMean
  refine (transpose_ix2_apply _ _ (0 : Fin 1) q).trans ?_
  show Ideal.log ((v6 (ix2 q (0 : Fin 1)) - Ideal.ofBits .f32 0x3F800000#32)
      * Named.named (F := Ideal) κ "inv_nm1" (φ := .f32) 0x39000400#32 + Ideal.ofBits .f32 0x322BCC77#32) = _
  rw [named_invCount]

/-! ## A chunk of the full row, and the 8192 columns as four chunks -/

/-- Column `l` of chunk `k` is column `2048 k + l` of the full row. -/
theorem chunk_apply (X : Vec Ideal S1x8192 .f32) (k : Fin k0_t1_loop.trips) (l : Fin 2048) :
    chunk X k (ix2 (0 : Fin 1) l)
      = X (ix2 (0 : Fin 1) (⟨2048 * k.val + l.val, by
          have := k.isLt; have := trips_eq; have := l.isLt; omega⟩ : Fin 8192)) := by
  show X _ = X _
  refine congrArg X (funext fun a => Fin.ext ?_)
  match a with
  | ⟨0, _⟩ =>
    show k0_off1 k 0 + 1 * 0 = 0
    rw [k0_off1_eq]; rfl
  | ⟨1, _⟩ =>
    show k0_off1 k 1 + 1 * l.val = 2048 * k.val + l.val
    rw [k0_off1_eq, Nat.one_mul]; rfl

/-- A sum over the 8192 columns is the sum over the four chunks of the sums over a chunk's 2048 columns. -/
theorem sum_eq_sum_chunks {M : Type*} [AddCommMonoid M] (f : Fin 8192 → M) :
    ∑ j : Fin 8192, f j
      = ∑ k : Fin 4, ∑ l : Fin 2048, f ⟨2048 * k.val + l.val, by have := k.isLt; have := l.isLt; omega⟩ := by
  refine (Equiv.sum_comp (finProdFinEquiv (m := 4) (n := 2048)) f).symm.trans ?_
  rw [Fintype.sum_prod_type]
  refine Finset.sum_congr rfl fun k _ => Finset.sum_congr rfl fun l _ => congrArg f (Fin.ext ?_)
  show l.val + 2048 * k.val = 2048 * k.val + l.val
  omega

/-! ## One trip on a chunk of the full rows -/

/-- Trip `k` on the first carried vector, at row `q`: the carried value plus the row sum over the columns
    `2048 k + l` of the observed samples' kernel matrix. -/
theorem trip_fst_apply (x0 : Vec Ideal S512x1 .f32) (acc : FVec Ideal S512x1 .f32) (X : Vec Ideal S1x8192 .f32)
    (k : Fin k0_t1_loop.trips) (q : Fin 512) :
    k0_pay4 (F := Ideal) x0 acc (chunk X k) (ix2 q (0 : Fin 1))
      = acc (ix2 q (0 : Fin 1))
        + ∑ l : Fin 2048, Cert.Kde.gauss (x0 (ix2 q (0 : Fin 1)))
            (X (ix2 (0 : Fin 1) (⟨2048 * k.val + l.val, by
              have := k.isLt; have := trips_eq; have := l.isLt; omega⟩ : Fin 8192))) := by
  refine (pay4_apply x0 acc (chunk X k) q).trans ?_
  refine congrArg (acc (ix2 q (0 : Fin 1)) + ·) (Finset.sum_congr rfl fun l _ => ?_)
  exact congrArg (Cert.Kde.gauss (x0 (ix2 q (0 : Fin 1)))) (chunk_apply X k l)

/-- Trip `k` on the second carried vector, at row `q`. -/
theorem trip_snd_apply (x1 : Vec Ideal S512x1 .f32) (acc : FVec Ideal S512x1 .f32) (X : Vec Ideal S1x8192 .f32)
    (k : Fin k0_t1_loop.trips) (q : Fin 512) :
    k0_pay5 (F := Ideal) x1 acc (chunk X k) (ix2 q (0 : Fin 1))
      = acc (ix2 q (0 : Fin 1))
        + ∑ l : Fin 2048, Cert.Kde.gauss (x1 (ix2 q (0 : Fin 1)))
            (X (ix2 (0 : Fin 1) (⟨2048 * k.val + l.val, by
              have := k.isLt; have := trips_eq; have := l.isLt; omega⟩ : Fin 8192))) := by
  refine (pay5_apply x1 acc (chunk X k) q).trans ?_
  refine congrArg (acc (ix2 q (0 : Fin 1)) + ·) (Finset.sum_congr rfl fun l _ => ?_)
  exact congrArg (Cert.Kde.gauss (x1 (ix2 q (0 : Fin 1)))) (chunk_apply X k l)

/-- Trip `k` on the third carried vector, at row `q`. -/
theorem trip_trd_apply (x0 x1 : Vec Ideal S512x1 .f32) (acc : FVec Ideal S512x1 .f32)
    (X Y : Vec Ideal S1x8192 .f32) (k : Fin k0_t1_loop.trips) (q : Fin 512) :
    k0_pay6 (F := Ideal) x0 x1 acc (chunk X k) (chunk Y k) (ix2 q (0 : Fin 1))
      = acc (ix2 q (0 : Fin 1))
        + ∑ l : Fin 2048, Cert.Kde.gauss (x0 (ix2 q (0 : Fin 1)))
            (X (ix2 (0 : Fin 1) (⟨2048 * k.val + l.val, by
              have := k.isLt; have := trips_eq; have := l.isLt; omega⟩ : Fin 8192)))
          * Cert.Kde.gauss (x1 (ix2 q (0 : Fin 1)))
            (Y (ix2 (0 : Fin 1) (⟨2048 * k.val + l.val, by
              have := k.isLt; have := trips_eq; have := l.isLt; omega⟩ : Fin 8192))) := by
  refine (pay6_apply x0 x1 acc (chunk X k) (chunk Y k) q).trans ?_
  refine congrArg (acc (ix2 q (0 : Fin 1)) + ·) (Finset.sum_congr rfl fun l _ => ?_)
  exact congrArg₂ (fun a b => Cert.Kde.gauss (x0 (ix2 q (0 : Fin 1))) a * Cert.Kde.gauss (x1 (ix2 q (0 : Fin 1))) b)
    (chunk_apply X k l) (chunk_apply Y k l)

/-! ## The four trips, and what the body stores -/

/-- The first carried vector after the four trips, at row `q`: the row sum of the observed samples' kernel matrix
    over all 8192 columns. -/
theorem fold4_fst_apply (x0 x1 : Vec Ideal S512x1 .f32) (X2 X3 : Vec Ideal S1x8192 .f32) (q : Fin 512) :
    (fold4 x0 x1 X2 X3).1 (ix2 q (0 : Fin 1))
      = ∑ j : Fin 8192, Cert.Kde.gauss (x0 (ix2 q (0 : Fin 1))) (X2 (ix2 (0 : Fin 1) j)) := by
  have h : (fold4 x0 x1 X2 X3).1
      = k0_pay4 x0 (k0_pay4 x0 (k0_pay4 x0 (k0_pay4 x0 (k0_pay1 (F := Ideal)) (chunk X2 ⟨0, by decide⟩))
          (chunk X2 ⟨1, by decide⟩)) (chunk X2 ⟨2, by decide⟩)) (chunk X2 ⟨3, by decide⟩) := rfl
  rw [h, trip_fst_apply, trip_fst_apply, trip_fst_apply, trip_fst_apply, pay1_apply, zero_add]
  exact ((sum_eq_sum_chunks (fun j : Fin 8192 => Cert.Kde.gauss (x0 (ix2 q (0 : Fin 1))) (X2 (ix2 (0 : Fin 1) j)))).trans (Fin.sum_univ_four _)).symm

/-- The second carried vector after the four trips, at row `q`. -/
theorem fold4_snd_apply (x0 x1 : Vec Ideal S512x1 .f32) (X2 X3 : Vec Ideal S1x8192 .f32) (q : Fin 512) :
    (fold4 x0 x1 X2 X3).2.1 (ix2 q (0 : Fin 1))
      = ∑ j : Fin 8192, Cert.Kde.gauss (x1 (ix2 q (0 : Fin 1))) (X3 (ix2 (0 : Fin 1) j)) := by
  have h : (fold4 x0 x1 X2 X3).2.1
      = k0_pay5 x1 (k0_pay5 x1 (k0_pay5 x1 (k0_pay5 x1 (k0_pay1 (F := Ideal)) (chunk X3 ⟨0, by decide⟩))
          (chunk X3 ⟨1, by decide⟩)) (chunk X3 ⟨2, by decide⟩)) (chunk X3 ⟨3, by decide⟩) := rfl
  rw [h, trip_snd_apply, trip_snd_apply, trip_snd_apply, trip_snd_apply, pay1_apply, zero_add]
  exact ((sum_eq_sum_chunks (fun j : Fin 8192 => Cert.Kde.gauss (x1 (ix2 q (0 : Fin 1))) (X3 (ix2 (0 : Fin 1) j)))).trans (Fin.sum_univ_four _)).symm

/-- The third carried vector after the four trips, at row `q`. -/
theorem fold4_trd_apply (x0 x1 : Vec Ideal S512x1 .f32) (X2 X3 : Vec Ideal S1x8192 .f32) (q : Fin 512) :
    (fold4 x0 x1 X2 X3).2.2 (ix2 q (0 : Fin 1))
      = ∑ j : Fin 8192, Cert.Kde.gauss (x0 (ix2 q (0 : Fin 1))) (X2 (ix2 (0 : Fin 1) j))
          * Cert.Kde.gauss (x1 (ix2 q (0 : Fin 1))) (X3 (ix2 (0 : Fin 1) j)) := by
  have h : (fold4 x0 x1 X2 X3).2.2
      = k0_pay6 x0 x1 (k0_pay6 x0 x1 (k0_pay6 x0 x1 (k0_pay6 x0 x1 (k0_pay1 (F := Ideal))
            (chunk X2 ⟨0, by decide⟩) (chunk X3 ⟨0, by decide⟩))
          (chunk X2 ⟨1, by decide⟩) (chunk X3 ⟨1, by decide⟩))
          (chunk X2 ⟨2, by decide⟩) (chunk X3 ⟨2, by decide⟩))
          (chunk X2 ⟨3, by decide⟩) (chunk X3 ⟨3, by decide⟩) := rfl
  rw [h, trip_trd_apply, trip_trd_apply, trip_trd_apply, trip_trd_apply, pay1_apply, zero_add]
  exact ((sum_eq_sum_chunks (fun j : Fin 8192 => Cert.Kde.gauss (x0 (ix2 q (0 : Fin 1))) (X2 (ix2 (0 : Fin 1) j))
      * Cert.Kde.gauss (x1 (ix2 q (0 : Fin 1))) (X3 (ix2 (0 : Fin 1) j)))).trans (Fin.sum_univ_four _)).symm

/-- The observed samples' output row at column `q`. -/
theorem out_y_apply (x0 x1 : Vec Ideal S512x1 .f32) (X2 X3 : Vec Ideal S1x8192 .f32) (q : Fin 512) :
    k0_pay7 (F := Ideal) (fold4 x0 x1 X2 X3).1 (ix2 (0 : Fin 1) q)
      = Cert.Kde.logMean (∑ j : Fin 8192, Cert.Kde.gauss (x0 (ix2 q (0 : Fin 1))) (X2 (ix2 (0 : Fin 1) j))) := by
  rw [pay7_apply, fold4_fst_apply]

/-- The predicted samples' output row at column `q`. -/
theorem out_p_apply (x0 x1 : Vec Ideal S512x1 .f32) (X2 X3 : Vec Ideal S1x8192 .f32) (q : Fin 512) :
    k0_pay8 (F := Ideal) (fold4 x0 x1 X2 X3).2.1 (ix2 (0 : Fin 1) q)
      = Cert.Kde.logMean (∑ j : Fin 8192, Cert.Kde.gauss (x1 (ix2 q (0 : Fin 1))) (X3 (ix2 (0 : Fin 1) j))) := by
  rw [pay8_apply, fold4_snd_apply]

/-- The joint samples' output row at column `q`. -/
theorem out_j_apply (x0 x1 : Vec Ideal S512x1 .f32) (X2 X3 : Vec Ideal S1x8192 .f32) (q : Fin 512) :
    k0_pay9 (F := Ideal) (fold4 x0 x1 X2 X3).2.2 (ix2 (0 : Fin 1) q)
      = Cert.Kde.logMean (∑ j : Fin 8192, Cert.Kde.gauss (x0 (ix2 q (0 : Fin 1))) (X2 (ix2 (0 : Fin 1) j))
          * Cert.Kde.gauss (x1 (ix2 q (0 : Fin 1))) (X3 (ix2 (0 : Fin 1) j))) := by
  rw [pay9_apply, fold4_trd_apply]

end Cert.KernelIdeal.KValue

end
-- ==== Proof.KernelArrays.lean ====
/-
  The kernel program's result, read off its run.

  The program reshapes the observed samples `Y` (argument 1) and the predicted samples `P` (argument 0) into a
  column [8192, 1] and a row [1, 8192] each, runs the pipelined region over sixteen grid points, and reduces the
  three [1, 8192] output rows on the host. At grid point `t` the region's body holds rows `512 t … 512 t + 511`
  of the two columns and the two whole rows; by the payload lemmas its three output blocks hold, at column `q`,
  the logarithm of the mean of row `512 t + q` of the three Gaussian kernel matrices (observed, predicted, and
  their entrywise product). The sixteen blocks tile each output row, so after the run each output array is the
  row of those logarithms over all 8192 samples; the host's total sum over a [1, 8192] array is the sum over its
  8192 columns, so each of the host's three negated means is `entropy` of the row, and the result is
  `kernelValue Y P`.
-/
import proofs.«411726_j38293928411580_3_alg».proof.Proof.KernelTrip
import proofs.«411726_j38293928411580_3_alg».proof.Proof.KernelPayload
import proofs.«411726_j38293928411580_3_alg».proof.Proof.KdeSpec
import Idealize.ShloMosaic.Lib.ValueIdx
import Idealize.ShloMosaic.Lib.Pipeline.Value
import Idealize.ShloMosaic.Lib.StableHlo.Run
import Idealize.ShloMosaic.PureOps.Ideal.Laws

set_option maxRecDepth 16384

noncomputable section

namespace Cert.KernelIdeal.KValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen ValueIdx

variable (m : (ℓ : Loc nD τ sig) → Buf (Elt Ideal) ℓ) (ρ : Dev nD → PrngReg)

/-- The observed samples, by position. -/
abbrev Ys (c : Dev nD) : Fin 8192 → EReal := fun r => m ((c : Thread nD τ).loc main_arg1) (ix1 r)
/-- The predicted samples, by position. -/
abbrev Ps (c : Dev nD) : Fin 8192 → EReal := fun r => m ((c : Thread nD τ).loc main_arg0) (ix1 r)

/-- The region finds window array `main_v0` as the host's reshape of an argument. -/
theorem V_v0 (c : Dev nD) : (V m c main_v0 : S8192x1.Idx → EReal) = shapeCast S8192x1 (m ((c : Thread nD τ).loc main_arg1)) shapeCasts_S8192_S8192x1 := by
  dsimp only [Gen.V, Gen.V0]
  simp only [Gen.hostOps0, List.flatten_cons, List.flatten_nil, List.append_nil, List.cons_append, List.nil_append]
  after_results
  rfl

/-- The region finds window array `main_v1` as the host's reshape of an argument. -/
theorem V_v1 (c : Dev nD) : (V m c main_v1 : S8192x1.Idx → EReal) = shapeCast S8192x1 (m ((c : Thread nD τ).loc main_arg0)) shapeCasts_S8192_S8192x1 := by
  dsimp only [Gen.V, Gen.V0]
  simp only [Gen.hostOps0, List.flatten_cons, List.flatten_nil, List.append_nil, List.cons_append, List.nil_append]
  after_results
  rfl

/-- The region finds window array `main_v2` as the host's reshape of an argument. -/
theorem V_v2 (c : Dev nD) : (V m c main_v2 : S1x8192.Idx → EReal) = shapeCast S1x8192 (m ((c : Thread nD τ).loc main_arg1)) shapeCasts_S8192_S1x8192 := by
  dsimp only [Gen.V, Gen.V0]
  simp only [Gen.hostOps0, List.flatten_cons, List.flatten_nil, List.append_nil, List.cons_append, List.nil_append]
  after_results
  rfl

/-- The region finds window array `main_v3` as the host's reshape of an argument. -/
theorem V_v3 (c : Dev nD) : (V m c main_v3 : S1x8192.Idx → EReal) = shapeCast S1x8192 (m ((c : Thread nD τ).loc main_arg0)) shapeCasts_S8192_S1x8192 := by
  dsimp only [Gen.V, Gen.V0]
  simp only [Gen.hostOps0, List.flatten_cons, List.flatten_nil, List.append_nil, List.cons_append, List.nil_append]
  after_results
  rfl

/-- A column array read at a row is the sample there. -/
theorem V_v0_at (c : Dev nD) (r : Fin 8192) : (V m c main_v0 : S8192x1.Idx → EReal) (ix2 r (0 : Fin 1)) = Ys m c r := by
  rw [V_v0]
  exact shapeCast_apply _ shapeCasts_S8192_S8192x1 (ix2 r (0 : Fin 1)) (ix1 r) (by
    rewrite [Shape.rowMajor_val_one, Shape.rowMajor_val_two]; show r.val = r.val * 1 + 0; omega)
theorem V_v1_at (c : Dev nD) (r : Fin 8192) : (V m c main_v1 : S8192x1.Idx → EReal) (ix2 r (0 : Fin 1)) = Ps m c r := by
  rw [V_v1]
  exact shapeCast_apply _ shapeCasts_S8192_S8192x1 (ix2 r (0 : Fin 1)) (ix1 r) (by
    rewrite [Shape.rowMajor_val_one, Shape.rowMajor_val_two]; show r.val = r.val * 1 + 0; omega)
/-- A row array read at a column is the sample there. -/
theorem V_v2_at (c : Dev nD) (j : Fin 8192) : (V m c main_v2 : S1x8192.Idx → EReal) (ix2 (0 : Fin 1) j) = Ys m c j := by
  rw [V_v2]
  exact shapeCast_apply _ shapeCasts_S8192_S1x8192 (ix2 (0 : Fin 1) j) (ix1 j) (by
    rewrite [Shape.rowMajor_val_one, Shape.rowMajor_val_two]; show j.val = 0 * 8192 + j.val; omega)
theorem V_v3_at (c : Dev nD) (j : Fin 8192) : (V m c main_v3 : S1x8192.Idx → EReal) (ix2 (0 : Fin 1) j) = Ps m c j := by
  rw [V_v3]
  exact shapeCast_apply _ shapeCasts_S8192_S1x8192 (ix2 (0 : Fin 1) j) (ix1 j) (by
    rewrite [Shape.rowMajor_val_one, Shape.rowMajor_val_two]; show j.val = 0 * 8192 + j.val; omega)

/-- The printed index maps over the sixteen grid points: the two column inputs and the three outputs move with the
    point, the two full rows stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = t.val
    ∧ win0_5.index t (0 : Fin 2) = 0 ∧ win0_5.index t (1 : Fin 2) = t.val
    ∧ win0_6.index t (0 : Fin 2) = 0 ∧ win0_6.index t (1 : Fin 2) = t.val :=
  (by decide +kernel : ∀ t : Fin grid0.N, _)

theorem t_lt (t : Fin cfg0.N) : t.val < 16 := Nat.lt_of_lt_of_le t.isLt (by decide)

/-- The four input blocks at a point, at their literal types. -/
abbrev xb0 (c : Dev nD) (t : Fin cfg0.N) : Vec Ideal S512x1 .f32 := iblk m c 0 t
abbrev xb1 (c : Dev nD) (t : Fin cfg0.N) : Vec Ideal S512x1 .f32 := iblk m c 1 t
abbrev xb2 (c : Dev nD) (t : Fin cfg0.N) : Vec Ideal S1x8192 .f32 := iblk m c 2 t
abbrev xb3 (c : Dev nD) (t : Fin cfg0.N) : Vec Ideal S1x8192 .f32 := iblk m c 3 t

/-- Row `q` of the observed block at point `t` is sample `512 t + q`. -/
theorem xb0_at (c : Dev nD) (t : Fin cfg0.N) (q : Fin 512) :
    xb0 m c t (ix2 q (0 : Fin 1)) = Ys m c ⟨512 * t.val + q.val, by have := t_lt t; have := q.isLt; omega⟩ := by
  obtain ⟨e0, e1, -⟩ := idx_facts t
  have ht := t_lt t
  have hq := q.isLt
  show V m c main_v0 (((cfg0.win 0).blk t).view.emb (ix2 q (0 : Fin 1))) = _
  have he : ((cfg0.win 0).blk t).view.emb (ix2 q (0 : Fin 1)) = ix2 (⟨512 * t.val + q.val, by omega⟩ : Fin 8192) (0 : Fin 1) := by
    funext a; apply Fin.ext
    match a with
    | ⟨0, _⟩ => show win0_0.index t (0 : Fin 2) * 512 + 1 * q.val = 512 * t.val + q.val; omega
    | ⟨1, _⟩ => show win0_0.index t (1 : Fin 2) * 1 + 1 * 0 = 0; omega
  rw [he]
  exact V_v0_at m c _

theorem xb1_at (c : Dev nD) (t : Fin cfg0.N) (q : Fin 512) :
    xb1 m c t (ix2 q (0 : Fin 1)) = Ps m c ⟨512 * t.val + q.val, by have := t_lt t; have := q.isLt; omega⟩ := by
  obtain ⟨-, -, e0, e1, -⟩ := idx_facts t
  have ht := t_lt t
  have hq := q.isLt
  show V m c main_v1 (((cfg0.win 1).blk t).view.emb (ix2 q (0 : Fin 1))) = _
  have he : ((cfg0.win 1).blk t).view.emb (ix2 q (0 : Fin 1)) = ix2 (⟨512 * t.val + q.val, by omega⟩ : Fin 8192) (0 : Fin 1) := by
    funext a; apply Fin.ext
    match a with
    | ⟨0, _⟩ => show win0_1.index t (0 : Fin 2) * 512 + 1 * q.val = 512 * t.val + q.val; omega
    | ⟨1, _⟩ => show win0_1.index t (1 : Fin 2) * 1 + 1 * 0 = 0; omega
  rw [he]
  exact V_v1_at m c _

/-- Column `j` of the observed row block, at every point, is sample `j`. -/
theorem xb2_at (c : Dev nD) (t : Fin cfg0.N) (j : Fin 8192) : xb2 m c t (ix2 (0 : Fin 1) j) = Ys m c j := by
  obtain ⟨-, -, -, -, e0, e1, -⟩ := idx_facts t
  have hj := j.isLt
  show V m c main_v2 (((cfg0.win 2).blk t).view.emb (ix2 (0 : Fin 1) j)) = _
  have he : ((cfg0.win 2).blk t).view.emb (ix2 (0 : Fin 1) j) = ix2 (0 : Fin 1) j := by
    funext a; apply Fin.ext
    match a with
    | ⟨0, _⟩ => show win0_2.index t (0 : Fin 2) * 1 + 1 * 0 = 0; omega
    | ⟨1, _⟩ => show win0_2.index t (1 : Fin 2) * 8192 + 1 * j.val = j.val; omega
  rw [he]
  exact V_v2_at m c _
theorem xb3_at (c : Dev nD) (t : Fin cfg0.N) (j : Fin 8192) : xb3 m c t (ix2 (0 : Fin 1) j) = Ps m c j := by
  obtain ⟨-, -, -, -, -, -, e0, e1, -⟩ := idx_facts t
  have hj := j.isLt
  show V m c main_v3 (((cfg0.win 3).blk t).view.emb (ix2 (0 : Fin 1) j)) = _
  have he : ((cfg0.win 3).blk t).view.emb (ix2 (0 : Fin 1) j) = ix2 (0 : Fin 1) j := by
    funext a; apply Fin.ext
    match a with
    | ⟨0, _⟩ => show win0_3.index t (0 : Fin 2) * 1 + 1 * 0 = 0; omega
    | ⟨1, _⟩ => show win0_3.index t (1 : Fin 2) * 8192 + 1 * j.val = j.val; omega
  rw [he]
  exact V_v3_at m c _

/-! ## The three output arrays as whole-array functions -/

/-- The logarithm of the row mean of the observed samples' kernel matrix, by row. -/
def logY (c : Dev nD) (r : Fin 8192) : EReal := Cert.Kde.logMean (∑ j : Fin 8192, Cert.Kde.gauss (Ys m c r) (Ys m c j))
/-- The same for the predicted samples. -/
def logP (c : Dev nD) (r : Fin 8192) : EReal := Cert.Kde.logMean (∑ j : Fin 8192, Cert.Kde.gauss (Ps m c r) (Ps m c j))
/-- The same for the joint samples, whose kernel matrix is the product of the two. -/
def logJ (c : Dev nD) (r : Fin 8192) : EReal :=
  Cert.Kde.logMean (∑ j : Fin 8192, Cert.Kde.gauss (Ys m c r) (Ys m c j) * Cert.Kde.gauss (Ps m c r) (Ps m c j))

/-- A function of the row laid out as a [1, 8192] array. -/
abbrev asRow (L : Fin 8192 → EReal) : S1x8192.Idx → EReal := fun i => L ⟨(i 1).val, (i 1).isLt⟩

/-- What point `t` writes back through output window 4 is block `t` of the row of `logY`. -/
theorem flushed4_eq (c : Dev nD) (t : Fin cfg0.N) :
    (dats m 0 c).flushed 4 t = ((cfg0.win 4).blk t).view.read (Elt Ideal) (asRow (logY m c)) := by
  show (cfg0.win 4).cut (grid0.coords t) ((dats m 0 c).after 4 t) = _
  rw [after0_4]
  unfold outsAt0
  dsimp only
  rw [out4_eq]
  obtain ⟨-, -, -, -, -, -, -, -, e0, e1, -⟩ := idx_facts t
  have ht := t_lt t
  funext j
  obtain ⟨p, q, rfl⟩ : ∃ (p : Fin 1) (q : Fin 512), j = ix2 p q := ⟨j 0, j 1, eq_ix2 j⟩
  obtain rfl : p = 0 := Subsingleton.elim _ _
  have hq := q.isLt
  show k0_pay7 (F := Ideal) (fold4 (xb0 m c t) (xb1 m c t) (xb2 m c t) (xb3 m c t)).1 (ix2 (0 : Fin 1) q)
    = asRow (logY m c) (((cfg0.win 4).blk t).view.emb (ix2 (0 : Fin 1) q))
  rw [out_y_apply]
  rw [xb0_at]
  simp only [xb2_at]
  have hr : asRow (logY m c) (((cfg0.win 4).blk t).view.emb (ix2 (0 : Fin 1) q)) = logY m c ⟨512 * t.val + q.val, by omega⟩ := by
    show logY m c ⟨_, _⟩ = _
    congr 1; apply Fin.ext
    show win0_4.index t (1 : Fin 2) * 512 + 1 * q.val = 512 * t.val + q.val; omega
  rw [hr]; rfl

/-- An index of the row array is in point `t`'s block of window 4 iff each coordinate is in the block's range. -/
theorem mem_blk4 (t : Fin cfg0.N) (i : S1x8192.Idx) :
    i ∈ ((cfg0.win 4).blk t).view.set ↔ ∀ a : Fin 2, win0_4.index t a * S1x512.size a ≤ (i a).val ∧ (i a).val < win0_4.index t a * S1x512.size a + S1x512.size a := by
  show i ∈ ((View.whole main_v4_0).slice (win0_4.rect t)).set ↔ _
  rw [View.set_slice_whole, Rect.mem_set_unit]
  exact Iff.rfl

/-- Every column of the row array lies in the block of the point `column / 512`. -/
theorem cover4 (i : S1x8192.Idx) : ∃ t : Fin cfg0.N, (cfg0.win 4).flush t = true ∧ i ∈ ((cfg0.win 4).blk t).view.set := by
  have h0 : (i 0).val < 1 := (i 0).isLt
  have h1 : (i 1).val < 8192 := (i 1).isLt
  have hN : (i 1).val / 512 < cfg0.N := by show _ < grid0.N; rw [N_0]; omega
  refine ⟨⟨(i 1).val / 512, hN⟩, flush0_4 _, ?_⟩
  rw [mem_blk4]
  obtain ⟨-, -, -, -, -, -, -, -, e0, e1, -⟩ := idx_facts ⟨(i 1).val / 512, hN⟩
  intro a
  match a with
  | ⟨0, _⟩ => show win0_4.index _ (0 : Fin 2) * 1 ≤ (i 0).val ∧ (i 0).val < win0_4.index _ (0 : Fin 2) * 1 + 1; rw [e0]; omega
  | ⟨1, _⟩ => show win0_4.index _ (1 : Fin 2) * 512 ≤ (i 1).val ∧ (i 1).val < win0_4.index _ (1 : Fin 2) * 512 + 512; rw [e1]; show (i 1).val / 512 * 512 ≤ (i 1).val ∧ (i 1).val < (i 1).val / 512 * 512 + 512; omega

/-- Output array 0 after the run. -/
theorem final4 (c : Dev nD) : (dats m 0 c).arrAt 4 cfg0.N = asRow (logY m c) :=
  (dats m 0 c).arrAt_eq_of_cover 4 (asRow (logY m c)) (fun t _ => flushed4_eq m c t) (cover4)

/-- What point `t` writes back through output window 5 is block `t` of the row of `logP`. -/
theorem flushed5_eq (c : Dev nD) (t : Fin cfg0.N) :
    (dats m 0 c).flushed 5 t = ((cfg0.win 5).blk t).view.read (Elt Ideal) (asRow (logP m c)) := by
  show (cfg0.win 5).cut (grid0.coords t) ((dats m 0 c).after 5 t) = _
  rw [after0_5]
  unfold outsAt0
  dsimp only
  rw [out5_eq]
  obtain ⟨-, -, -, -, -, -, -, -, -, -, e0, e1, -⟩ := idx_facts t
  have ht := t_lt t
  funext j
  obtain ⟨p, q, rfl⟩ : ∃ (p : Fin 1) (q : Fin 512), j = ix2 p q := ⟨j 0, j 1, eq_ix2 j⟩
  obtain rfl : p = 0 := Subsingleton.elim _ _
  have hq := q.isLt
  show k0_pay8 (F := Ideal) (fold4 (xb0 m c t) (xb1 m c t) (xb2 m c t) (xb3 m c t)).2.1 (ix2 (0 : Fin 1) q)
    = asRow (logP m c) (((cfg0.win 5).blk t).view.emb (ix2 (0 : Fin 1) q))
  rw [out_p_apply]
  rw [xb1_at]
  simp only [xb3_at]
  have hr : asRow (logP m c) (((cfg0.win 5).blk t).view.emb (ix2 (0 : Fin 1) q)) = logP m c ⟨512 * t.val + q.val, by omega⟩ := by
    show logP m c ⟨_, _⟩ = _
    congr 1; apply Fin.ext
    show win0_5.index t (1 : Fin 2) * 512 + 1 * q.val = 512 * t.val + q.val; omega
  rw [hr]; rfl

/-- An index of the row array is in point `t`'s block of window 5 iff each coordinate is in the block's range. -/
theorem mem_blk5 (t : Fin cfg0.N) (i : S1x8192.Idx) :
    i ∈ ((cfg0.win 5).blk t).view.set ↔ ∀ a : Fin 2, win0_5.index t a * S1x512.size a ≤ (i a).val ∧ (i a).val < win0_5.index t a * S1x512.size a + S1x512.size a := by
  show i ∈ ((View.whole main_v4_1).slice (win0_5.rect t)).set ↔ _
  rw [View.set_slice_whole, Rect.mem_set_unit]
  exact Iff.rfl

/-- Every column of the row array lies in the block of the point `column / 512`. -/
theorem cover5 (i : S1x8192.Idx) : ∃ t : Fin cfg0.N, (cfg0.win 5).flush t = true ∧ i ∈ ((cfg0.win 5).blk t).view.set := by
  have h0 : (i 0).val < 1 := (i 0).isLt
  have h1 : (i 1).val < 8192 := (i 1).isLt
  have hN : (i 1).val / 512 < cfg0.N := by show _ < grid0.N; rw [N_0]; omega
  refine ⟨⟨(i 1).val / 512, hN⟩, flush0_5 _, ?_⟩
  rw [mem_blk5]
  obtain ⟨-, -, -, -, -, -, -, -, -, -, e0, e1, -⟩ := idx_facts ⟨(i 1).val / 512, hN⟩
  intro a
  match a with
  | ⟨0, _⟩ => show win0_5.index _ (0 : Fin 2) * 1 ≤ (i 0).val ∧ (i 0).val < win0_5.index _ (0 : Fin 2) * 1 + 1; rw [e0]; omega
  | ⟨1, _⟩ => show win0_5.index _ (1 : Fin 2) * 512 ≤ (i 1).val ∧ (i 1).val < win0_5.index _ (1 : Fin 2) * 512 + 512; rw [e1]; show (i 1).val / 512 * 512 ≤ (i 1).val ∧ (i 1).val < (i 1).val / 512 * 512 + 512; omega

/-- Output array 1 after the run. -/
theorem final5 (c : Dev nD) : (dats m 0 c).arrAt 5 cfg0.N = asRow (logP m c) :=
  (dats m 0 c).arrAt_eq_of_cover 5 (asRow (logP m c)) (fun t _ => flushed5_eq m c t) (cover5)

/-- What point `t` writes back through output window 6 is block `t` of the row of `logJ`. -/
theorem flushed6_eq (c : Dev nD) (t : Fin cfg0.N) :
    (dats m 0 c).flushed 6 t = ((cfg0.win 6).blk t).view.read (Elt Ideal) (asRow (logJ m c)) := by
  show (cfg0.win 6).cut (grid0.coords t) ((dats m 0 c).after 6 t) = _
  rw [after0_6]
  unfold outsAt0
  dsimp only
  rw [out6_eq]
  obtain ⟨-, -, -, -, -, -, -, -, -, -, -, -, e0, e1⟩ := idx_facts t
  have ht := t_lt t
  funext j
  obtain ⟨p, q, rfl⟩ : ∃ (p : Fin 1) (q : Fin 512), j = ix2 p q := ⟨j 0, j 1, eq_ix2 j⟩
  obtain rfl : p = 0 := Subsingleton.elim _ _
  have hq := q.isLt
  show k0_pay9 (F := Ideal) (fold4 (xb0 m c t) (xb1 m c t) (xb2 m c t) (xb3 m c t)).2.2 (ix2 (0 : Fin 1) q)
    = asRow (logJ m c) (((cfg0.win 6).blk t).view.emb (ix2 (0 : Fin 1) q))
  rw [out_j_apply]
  rw [xb0_at, xb1_at]
  simp only [xb2_at, xb3_at]
  have hr : asRow (logJ m c) (((cfg0.win 6).blk t).view.emb (ix2 (0 : Fin 1) q)) = logJ m c ⟨512 * t.val + q.val, by omega⟩ := by
    show logJ m c ⟨_, _⟩ = _
    congr 1; apply Fin.ext
    show win0_6.index t (1 : Fin 2) * 512 + 1 * q.val = 512 * t.val + q.val; omega
  rw [hr]; rfl

/-- An index of the row array is in point `t`'s block of window 6 iff each coordinate is in the block's range. -/
theorem mem_blk6 (t : Fin cfg0.N) (i : S1x8192.Idx) :
    i ∈ ((cfg0.win 6).blk t).view.set ↔ ∀ a : Fin 2, win0_6.index t a * S1x512.size a ≤ (i a).val ∧ (i a).val < win0_6.index t a * S1x512.size a + S1x512.size a := by
  show i ∈ ((View.whole main_v4_2).slice (win0_6.rect t)).set ↔ _
  rw [View.set_slice_whole, Rect.mem_set_unit]
  exact Iff.rfl

/-- Every column of the row array lies in the block of the point `column / 512`. -/
theorem cover6 (i : S1x8192.Idx) : ∃ t : Fin cfg0.N, (cfg0.win 6).flush t = true ∧ i ∈ ((cfg0.win 6).blk t).view.set := by
  have h0 : (i 0).val < 1 := (i 0).isLt
  have h1 : (i 1).val < 8192 := (i 1).isLt
  have hN : (i 1).val / 512 < cfg0.N := by show _ < grid0.N; rw [N_0]; omega
  refine ⟨⟨(i 1).val / 512, hN⟩, flush0_6 _, ?_⟩
  rw [mem_blk6]
  obtain ⟨-, -, -, -, -, -, -, -, -, -, -, -, e0, e1⟩ := idx_facts ⟨(i 1).val / 512, hN⟩
  intro a
  match a with
  | ⟨0, _⟩ => show win0_6.index _ (0 : Fin 2) * 1 ≤ (i 0).val ∧ (i 0).val < win0_6.index _ (0 : Fin 2) * 1 + 1; rw [e0]; omega
  | ⟨1, _⟩ => show win0_6.index _ (1 : Fin 2) * 512 ≤ (i 1).val ∧ (i 1).val < win0_6.index _ (1 : Fin 2) * 512 + 512; rw [e1]; show (i 1).val / 512 * 512 ≤ (i 1).val ∧ (i 1).val < (i 1).val / 512 * 512 + 512; omega

/-- Output array 2 after the run. -/
theorem final6 (c : Dev nD) : (dats m 0 c).arrAt 6 cfg0.N = asRow (logJ m c) :=
  (dats m 0 c).arrAt_eq_of_cover 6 (asRow (logJ m c)) (fun t _ => flushed6_eq m c t) (cover6)

/-- The host's mean of a row array, negated, is the entropy estimate of the row. -/
theorem entropy_row (L : Fin 8192 → EReal) :
    Host.negf (Host.divf (Host.reduceAdd (F := Ideal) (asRow L) (constant S_ .f32 0x00000000#32) reducesTo_S1x8192_S_d0_1 h_S_)
        (constant S_ .f32 0x46000000#32))
      = fun _ => Cert.Kde.entropy L := by
  funext i
  have hs : Host.reduceAdd (F := Ideal) (asRow L) (constant S_ .f32 0x00000000#32) reducesTo_S1x8192_S_d0_1 h_S_ i
      = Cert.Kde.zero + ∑ r : Fin 8192, L r := by
    simp only [Host.reduceAdd, Ideal.hostReduceAdd_def]
    rw [Ideal.hostReduceAdd_total reducesTo_S1x8192_S_d0_1 (fun b => b.elim0) _ _ i, sum_idx2, Fin.sum_univ_one]
    rfl
  show FloatOps.hostNegf (FloatOps.hostDivf (Host.reduceAdd (F := Ideal) (asRow L) (constant S_ .f32 0x00000000#32) reducesTo_S1x8192_S_d0_1 h_S_ i)
      (FloatOps.ofBits .f32 0x46000000#32)) = _
  rw [hs]
  rfl

/-- What the program returns on core `c`: the lines after the region applied to the three output arrays. -/
theorem tail_value (c : Dev nD) :
    Pipeline.afterTail₀ cfgs (dats m) 0 (V0 m) [hostOps1] c main_v16 = fun _ => Cert.Kde.kernelValue (Ys m c) (Ps m c) := by
  unfold Pipeline.afterTail₀
  show StableHlo.after hostOps1 _ (Proc.devRef .tc main_v16) = _
  after_results
  have a4 : Pipeline.withArrays (cfgs 0).spec c (V0 m c) (fun w => (dats m 0 c).arrAt w (cfgs 0).N) (Proc.devRef .tc main_v4_0) = asRow (logY m c) :=
    (Pipeline.withArrays_arr spec0 launch0.win.arr_inj c (V0 m c) (fun w => (dats m 0 c).arrAt w (cfgs 0).N) 4).trans (final4 m c)
  have a5 : Pipeline.withArrays (cfgs 0).spec c (V0 m c) (fun w => (dats m 0 c).arrAt w (cfgs 0).N) (Proc.devRef .tc main_v4_1) = asRow (logP m c) :=
    (Pipeline.withArrays_arr spec0 launch0.win.arr_inj c (V0 m c) (fun w => (dats m 0 c).arrAt w (cfgs 0).N) 5).trans (final5 m c)
  have a6 : Pipeline.withArrays (cfgs 0).spec c (V0 m c) (fun w => (dats m 0 c).arrAt w (cfgs 0).N) (Proc.devRef .tc main_v4_2) = asRow (logJ m c) :=
    (Pipeline.withArrays_arr spec0 launch0.win.arr_inj c (V0 m c) (fun w => (dats m 0 c).arrAt w (cfgs 0).N) 6).trans (final6 m c)
  rw [a4, a5, a6, entropy_row, entropy_row, entropy_row]
  rfl

/-- THE KERNEL PROGRAM'S RUN, READ: every weakly fair execution ends with the result at `kernelValue` of the two
    sample arrays and the arguments as launched. -/
theorem run : θ_run defs (onTc (τ := τ) (main (F := Ideal))) ⟨m, fun _ => 0, ρ⟩ (fun r => ∀ c : Dev nD,
      r.2.mem ((c.tc : Thread nD τ).loc main_v16) = (fun _ => Cert.Kde.kernelValue (Ys m c) (Ps m c))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨((h c).2 main_v16 (Pipeline.mem_restRefs_of main_v16 (by decide) (by decide))).trans (tail_value m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.KValue
end
-- ==== Proof.lean ====
/-
  The kernel program and the reference compute the same mutual-information estimate on finite samples.

  Both return `-(H(Y) + H(P) - H(Y, P))` with `H` the Gaussian-kernel entropy estimate of 8192 samples
  (Proof/KdeSpec.lean). The kernel program's run ends at `kernelValue Y P` (Proof/KernelArrays.lean, over
  Proof/KernelTrip.lean and Proof/KernelPayload.lean: the column loop folded, the body's payloads read at an
  index, the sixteen blocks tiling each output row, the host's three means). The reference's run ends at
  `refValue Y P` (Proof/RefValue.lean, over its run read one operation at a time). Under the precondition every
  sample is a real number (Proof/Finite.lean), and on real samples the two values are equal
  (Proof/KdeAlgebra.lean): the Gram expansion of a squared distance is the square of the difference, dividing by
  the dyadic `D` is multiplying by the kernel's named scale `-1/D`, the exponential of a sum is the product of
  the exponentials, and dividing by 8191 is multiplying by the named `1/8191`.
  The three frames are the generated frame runs (the reference's: its run with the result dropped), and the
  idealization's five conjuncts are the named constants' values in the certificate's table.
-/
import proofs.«411726_j38293928411580_3_alg».proof.Defs
import proofs.«411726_j38293928411580_3_alg».proof.Proof.Gen.Kernel.Frame
import proofs.«411726_j38293928411580_3_alg».proof.Proof.Gen.KernelIdeal.Frame
import proofs.«411726_j38293928411580_3_alg».proof.Proof.Gen.ReferenceIdeal
import proofs.«411726_j38293928411580_3_alg».proof.Proof.Gen.ReferenceIdeal.Run
import proofs.«411726_j38293928411580_3_alg».proof.Proof.Gen.ReferenceIdeal.Read
import proofs.«411726_j38293928411580_3_alg».proof.Proof.Gen.Pre_finite_inputs
import proofs.«411726_j38293928411580_3_alg».proof.Proof.RefValue
import proofs.«411726_j38293928411580_3_alg».proof.Proof.KdeAlgebra
import proofs.«411726_j38293928411580_3_alg».proof.Proof.Finite
import Idealize.ShloMosaic.Adequacy
import Idealize.ShloMosaic.Init
import proofs.«411726_j38293928411580_3_alg».proof.Proof.KernelArrays
import proofs.«411726_j38293928411580_3_alg».proof.Proof.Gen.Kernel
import proofs.«411726_j38293928411580_3_alg».proof.Proof.Gen.KernelIdeal

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Gen.frame m ρ

/-- The idealized kernel program runs and keeps its arguments. -/
theorem frame_kernelIdeal : Cert.frame_KernelIdeal := fun m ρ _ => Cert.KernelIdeal.Gen.frame m ρ

/-- The idealized reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The two named constants denote, at the ideal values, the rationals the table gives them: the scale `-1/D`
    at its two sites and the reciprocal `1/8191` at its three. -/
theorem preserves : Cert.preserves_Kernel_KernelIdeal :=
  ⟨IdealRules.named_const.statement Cert.KernelIdeal.κ "neg_inv_two_sigma_sq" .f32 0xC2480000#32 ((-268435456 / 5368709 : ℝ) : EReal) rfl,
   IdealRules.named_const.statement Cert.KernelIdeal.κ "neg_inv_two_sigma_sq" .f32 0xC2480000#32 ((-268435456 / 5368709 : ℝ) : EReal) rfl,
   IdealRules.named_const.statement Cert.KernelIdeal.κ "inv_nm1" .f32 0x39000400#32 ((1 / 8191 : ℝ) : EReal) rfl,
   IdealRules.named_const.statement Cert.KernelIdeal.κ "inv_nm1" .f32 0x39000400#32 ((1 / 8191 : ℝ) : EReal) rfl,
   IdealRules.named_const.statement Cert.KernelIdeal.κ "inv_nm1" .f32 0x39000400#32 ((1 / 8191 : ℝ) : EReal) rfl⟩

/-- On finite samples the kernel program ends at `kernelValue` of the samples and the reference at `refValue` of
    the same samples, and the two are equal. -/
theorem algebraic : Cert.algebraic_KernelIdeal_ReferenceIdeal := by
  intro m ρ m' ρ' hpre hagree
  refine ⟨fun c => (fun _ => Cert.Kde.kernelValue (Cert.KernelIdeal.KValue.Ys m c) (Cert.KernelIdeal.KValue.Ps m c)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v92_eq, Cert.ReferenceIdeal.RefValue.ref_value, (hagree c).1, (hagree c).2]
  obtain ⟨h0, h1⟩ := Cert.Kde.real_of_pre _ _ (hpre c)
  exact funext fun _ => Cert.Kde.refValue_eq_kernelValue _ _ (fun r => h1 _) (fun r => h0 _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
